-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S500000x32 : Shape := ⟨2, ![500000, 32]⟩
abbrev S1000000x32 : Shape := ⟨2, ![1000000, 32]⟩
abbrev S500000 : Shape := ⟨1, ![500000]⟩
abbrev S2000000 : Shape := ⟨1, ![2000000]⟩
abbrev S100x128 : Shape := ⟨2, ![100, 128]⟩
abbrev S128x128 : Shape := ⟨2, ![128, 128]⟩
abbrev S128 : Shape := ⟨1, ![128]⟩
abbrev S32x64 : Shape := ⟨2, ![32, 64]⟩
abbrev S64 : Shape := ⟨1, ![64]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S500000x32 : S_.BroadcastsInDim S500000x32 (![] : Fin 0 → Fin S500000x32.rank)
  reducesTo_S500000x32_S_d0_1 : S500000x32.ReducesTo [0, 1] S_
  bcast_S_S1000000x32 : S_.BroadcastsInDim S1000000x32 (![] : Fin 0 → Fin S1000000x32.rank)
  reducesTo_S1000000x32_S_d0_1 : S1000000x32.ReducesTo [0, 1] S_
  bcast_S_S100x128 : S_.BroadcastsInDim S100x128 (![] : Fin 0 → Fin S100x128.rank)
  reducesTo_S100x128_S_d0_1 : S100x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S500000 : S_.BroadcastsInDim S500000 (![] : Fin 0 → Fin S500000.rank)
  reducesTo_S500000_S_d0 : S500000.ReducesTo [0] S_

variable [Facts]

def fn_part3 {F : FTy → Type} [FloatOps F] (main_arg3 : IVec S500000 32) (main_arg14 : FVec F S64 .f32) (main_v48 : IVec S_ 1) (main_v49 : FVec F S32x64 .f32) (main_v50 : FVec F S32x64 .f32) : IVec S_ 1 :=
  let main_v51 : IVec S32x64 1 := cmpf .olt main_v49 main_v50
  let main_c_19 : IVec S_ 1 := constantI S_ 1 1#1
  let main_v52 : IVec S_ 1 := (fun x v => Host.reduce IntOp.andi x v reducesTo_S32x64_S_d0_1 h_S_) main_v51 main_c_19
  let main_v53 : IVec S_ 1 := andi main_v48 main_v52
  let main_v54 : FVec F S64 .f32 := Host.absf main_arg14
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_c_22 : IVec S_ 32 := constantI S_ 32 0#32
  let main_v59 : IVec S500000 32 := broadcastInDim S500000 ![] bcast_S_S500000 main_c_22
  let main_v60 : IVec S500000 1 := cmpi .sge main_arg3 main_v59
  let main_c_23 : IVec S_ 32 := constantI S_ 32 100#32
  let main_v61 : IVec S500000 32 := broadcastInDim S500000 ![] bcast_S_S500000 main_c_23
  let main_v62 : IVec S500000 1 := cmpi .slt main_arg3 main_v61
  let main_v63 : IVec S500000 1 := andi main_v60 main_v62
  let main_c_24 : IVec S_ 1 := constantI S_ 1 1#1
  let main_v64 : IVec S_ 1 := (fun x v => Host.reduce IntOp.andi x v reducesTo_S500000_S_d0 h_S_) main_v63 main_c_24
  let main_v65 : IVec S_ 1 := andi main_v58 main_v64
  main_v65

def fn_part2 {F : FTy → Type} [FloatOps F] (main_arg3 : IVec S500000 32) (main_arg10 : FVec F S128 .f32) (main_arg11 : FVec F S32x64 .f32) (main_arg12 : FVec F S64 .f32) (main_arg13 : FVec F S32x64 .f32) (main_arg14 : FVec F S64 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S32x64 .f32 := Host.absf main_arg11
  let main_cst_14 : FVec F S_ .f32 := constant S_ .f32 0x7F800000#32
  let main_v40 : FVec F S32x64 .f32 := broadcastInDim S32x64 ![] bcast_S_S32x64 main_cst_14
  let main_v41 : IVec S32x64 1 := cmpf .olt main_v39 main_v40
  let main_c_15 : IVec S_ 1 := constantI S_ 1 1#1
  let main_v42 : IVec S_ 1 := (fun x v => Host.reduce IntOp.andi x v reducesTo_S32x64_S_d0_1 h_S_) main_v41 main_c_15
  let main_v43 : IVec S_ 1 := andi main_v38 main_v42
  let main_v44 : FVec F S64 .f32 := Host.absf main_arg12
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S32x64 .f32 := Host.absf main_arg13
  let main_cst_18 : FVec F S_ .f32 := constant S_ .f32 0x7F800000#32
  let main_v50 : FVec F S32x64 .f32 := broadcastInDim S32x64 ![] bcast_S_S32x64 main_cst_18
  fn_part3 (F := F) main_arg3 main_arg14 main_v48 main_v49 main_v50

def fn_part1 {F : FTy → Type} [FloatOps F] (main_arg3 : IVec S500000 32) (main_arg7 : FVec F S128x128 .f32) (main_arg8 : FVec F S128 .f32) (main_arg9 : FVec F S128x128 .f32) (main_arg10 : FVec F S128 .f32) (main_arg11 : FVec F S32x64 .f32) (main_arg12 : FVec F S64 .f32) (main_arg13 : FVec F S32x64 .f32) (main_arg14 : FVec F S64 .f32) (main_v13 : IVec S_ 1) (main_v16 : IVec S100x128 1) : IVec S_ 1 :=
  let main_c_5 : IVec S_ 1 := constantI S_ 1 1#1
  let main_v17 : IVec S_ 1 := (fun x v => Host.reduce IntOp.andi x v reducesTo_S100x128_S_d0_1 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg3 main_arg10 main_arg11 main_arg12 main_arg13 main_arg14 main_v33

def fn {F : FTy → Type} [FloatOps F] (main_arg0 : FVec F S500000x128 .f32) (main_arg1 : FVec F S500000x32 .f32) (main_arg2 : FVec F S1000000x32 .f32) (main_arg3 : IVec S500000 32) (main_arg4 : IVec S2000000 32) (main_arg5 : IVec S2000000 32) (main_arg6 : FVec F S100x128 .f32) (main_arg7 : FVec F S128x128 .f32) (main_arg8 : FVec F S128 .f32) (main_arg9 : FVec F S128x128 .f32) (main_arg10 : FVec F S128 .f32) (main_arg11 : FVec F S32x64 .f32) (main_arg12 : FVec F S64 .f32) (main_arg13 : FVec F S32x64 .f32) (main_arg14 : FVec F S64 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S500000x32 .f32 := Host.absf main_arg1
  let main_cst_0 : FVec F S_ .f32 := constant S_ .f32 0x7F800000#32
  let main_v5 : FVec F S500000x32 .f32 := broadcastInDim S500000x32 ![] bcast_S_S500000x32 main_cst_0
  let main_v6 : IVec S500000x32 1 := cmpf .olt main_v4 main_v5
  let main_c_1 : IVec S_ 1 := constantI S_ 1 1#1
  let main_v7 : IVec S_ 1 := (fun x v => Host.reduce IntOp.andi x v reducesTo_S500000x32_S_d0_1 h_S_) main_v6 main_c_1
  let main_v8 : IVec S_ 1 := andi main_v3 main_v7
  let main_v9 : FVec F S1000000x32 .f32 := Host.absf main_arg2
  let main_cst_2 : FVec F S_ .f32 := constant S_ .f32 0x7F800000#32
  let main_v10 : FVec F S1000000x32 .f32 := broadcastInDim S1000000x32 ![] bcast_S_S1000000x32 main_cst_2
  let main_v11 : IVec S1000000x32 1 := cmpf .olt main_v9 main_v10
  let main_c_3 : IVec S_ 1 := constantI S_ 1 1#1
  let main_v12 : IVec S_ 1 := (fun x v => Host.reduce IntOp.andi x v reducesTo_S1000000x32_S_d0_1 h_S_) main_v11 main_c_3
  let main_v13 : IVec S_ 1 := andi main_v8 main_v12
  let main_v14 : FVec F S100x128 .f32 := Host.absf main_arg6
  let main_cst_4 : FVec F S_ .f32 := constant S_ .f32 0x7F800000#32
  let main_v15 : FVec F S100x128 .f32 := broadcastInDim S100x128 ![] bcast_S_S100x128 main_cst_4
  let main_v16 : IVec S100x128 1 := cmpf .olt main_v14 main_v15
  fn_part1 (F := F) main_arg3 main_arg7 main_arg8 main_arg9 main_arg10 main_arg11 main_arg12 main_arg13 main_arg14 main_v13 main_v16
-- ==== Kernel.lean ====
abbrev S500000x128 : Shape := ⟨2, ![500000, 128]⟩
abbrev S500000x32 : Shape := ⟨2, ![500000, 32]⟩
abbrev S1000000x32 : Shape := ⟨2, ![1000000, 32]⟩
abbrev S500000 : Shape := ⟨1, ![500000]⟩
abbrev S2000000 : Shape := ⟨1, ![2000000]⟩
abbrev S100x128 : Shape := ⟨2, ![100, 128]⟩
abbrev S128x128 : Shape := ⟨2, ![128, 128]⟩
abbrev S128 : Shape := ⟨1, ![128]⟩
abbrev S32x64 : Shape := ⟨2, ![32, 64]⟩
abbrev S64 : Shape := ⟨1, ![64]⟩
abbrev S500000x1 : Shape := ⟨2, ![500000, 1]⟩
abbrev S_ : Shape := ⟨0, ![]⟩
abbrev S500000x64 : Shape := ⟨2, ![500000, 64]⟩
abbrev S4000x128 : Shape := ⟨2, ![4000, 128]⟩
abbrev S4000x1 : Shape := ⟨2, ![4000, 1]⟩
abbrev S4000x32 : Shape := ⟨2, ![4000, 32]⟩
abbrev S4000x64 : Shape := ⟨2, ![4000, 64]⟩
abbrev S1x128 : Shape := ⟨2, ![1, 128]⟩
abbrev S1x64 : Shape := ⟨2, ![1, 64]⟩
abbrev S1000000x64 : Shape := ⟨2, ![1000000, 64]⟩
abbrev S8000x32 : Shape := ⟨2, ![8000, 32]⟩
abbrev S8000x64 : Shape := ⟨2, ![8000, 64]⟩
abbrev S2000000x1 : Shape := ⟨2, ![2000000, 1]⟩
abbrev S2000000x64 : Shape := ⟨2, ![2000000, 64]⟩
abbrev S5000x128 : Shape := ⟨2, ![5000, 128]⟩

abbrev nBuf : Space → Nat
  | .hbm => 49
  | .vmem => 29
  | .smem => 0
  | _ => 0

abbrev bufTy : (tb : Table) → Fin (tcTables nBuf tb) → BufTy
  | .hbm, ⟨0, _⟩ => ⟨S500000x128, .f32⟩
  | .hbm, ⟨1, _⟩ => ⟨S500000x32, .f32⟩
  | .hbm, ⟨2, _⟩ => ⟨S1000000x32, .f32⟩
  | .hbm, ⟨3, _⟩ => ⟨S500000, .i32⟩
  | .hbm, ⟨4, _⟩ => ⟨S2000000, .i32⟩
  | .hbm, ⟨5, _⟩ => ⟨S2000000, .i32⟩
  | .hbm, ⟨6, _⟩ => ⟨S100x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S32x64, .f32⟩
  | .hbm, ⟨12, _⟩ => ⟨S64, .f32⟩
  | .hbm, ⟨13, _⟩ => ⟨S32x64, .f32⟩
  | .hbm, ⟨14, _⟩ => ⟨S64, .f32⟩
  | .hbm, ⟨15, _⟩ => ⟨S500000x1, .i32⟩
  | .hbm, ⟨16, _⟩ => ⟨S_, .i32⟩
  | .hbm, ⟨17, _⟩ => ⟨S_, .f32⟩
  | .hbm, ⟨18, _⟩ => ⟨S128x128, .f32⟩
  | .hbm, ⟨19, _⟩ => ⟨S500000x128, .f32⟩
  | .hbm, ⟨20, _⟩ => ⟨S500000x64, .f32⟩
  | .hbm, ⟨21, _⟩ => ⟨S1000000x64, .f32⟩
  | .hbm, ⟨22, _⟩ => ⟨S_, .i32⟩
  | .hbm, ⟨23, _⟩ => ⟨S2000000, .i32⟩
  | .hbm, ⟨24, _⟩ => ⟨S2000000, .i1⟩
  | .hbm, ⟨25, _⟩ => ⟨S_, .i32⟩
  | .hbm, ⟨26, _⟩ => ⟨S2000000, .i32⟩
  | .hbm, ⟨27, _⟩ => ⟨S2000000, .i32⟩
  | .hbm, ⟨28, _⟩ => ⟨S2000000, .i32⟩
  | .hbm, ⟨29, _⟩ => ⟨S2000000x1, .i32⟩
  | .hbm, ⟨30, _⟩ => ⟨S2000000x64, .f32⟩
  | .hbm, ⟨31, _⟩ => ⟨S_, .f32⟩
  | .hbm, ⟨32, _⟩ => ⟨S500000x64, .f32⟩
  | .hbm, ⟨33, _⟩ => ⟨S2000000x1, .i32⟩
  | .hbm, ⟨34, _⟩ => ⟨S500000x64, .f32⟩
  | .hbm, ⟨35, _⟩ => ⟨S_, .f32⟩
  | .hbm, ⟨36, _⟩ => ⟨S2000000, .f32⟩
  | .hbm, ⟨37, _⟩ => ⟨S_, .f32⟩
  | .hbm, ⟨38, _⟩ => ⟨S500000, .f32⟩
  | .hbm, ⟨39, _⟩ => ⟨S2000000x1, .i32⟩
  | .hbm, ⟨40, _⟩ => ⟨S500000, .f32⟩
  | .hbm, ⟨41, _⟩ => ⟨S_, .f32⟩
  | .hbm, ⟨42, _⟩ => ⟨S500000, .f32⟩
  | .hbm, ⟨43, _⟩ => ⟨S500000, .f32⟩
  | .hbm, ⟨44, _⟩ => ⟨S500000x1, .f32⟩
  | .hbm, ⟨45, _⟩ => ⟨S500000x64, .f32⟩
  | .hbm, ⟨46, _⟩ => ⟨S500000x64, .f32⟩
  | .hbm, ⟨47, _⟩ => ⟨S500000x128, .f32⟩
  | .hbm, ⟨48, _⟩ => ⟨S500000x128, .f32⟩
  | .local _ .vmem, ⟨0, _⟩ => ⟨S4000x128, .f32⟩
  | .local _ .vmem, ⟨1, _⟩ => ⟨S4000x128, .f32⟩
  | .local _ .vmem, ⟨2, _⟩ => ⟨S4000x1, .i32⟩
  | .local _ .vmem, ⟨3, _⟩ => ⟨S4000x1, .i32⟩
  | .local _ .vmem, ⟨4, _⟩ => ⟨S4000x32, .f32⟩
  | .local _ .vmem, ⟨5, _⟩ => ⟨S4000x32, .f32⟩
  | .local _ .vmem, ⟨6, _⟩ => ⟨S128x128, .f32⟩
  | .local _ .vmem, ⟨7, _⟩ => ⟨S128x128, .f32⟩
  | .local _ .vmem, ⟨8, _⟩ => ⟨S128, .f32⟩
  | .local _ .vmem, ⟨9, _⟩ => ⟨S128x128, .f32⟩
  | .local _ .vmem, ⟨10, _⟩ => ⟨S128, .f32⟩
  | .local _ .vmem, ⟨11, _⟩ => ⟨S32x64, .f32⟩
  | .local _ .vmem, ⟨12, _⟩ => ⟨S64, .f32⟩
  | .local _ .vmem, ⟨13, _⟩ => ⟨S4000x128, .f32⟩
  | .local _ .vmem, ⟨14, _⟩ => ⟨S4000x128, .f32⟩
  | .local _ .vmem, ⟨15, _⟩ => ⟨S4000x64, .f32⟩
  | .local _ .vmem, ⟨16, _⟩ => ⟨S4000x64, .f32⟩
  | .local _ .vmem, ⟨17, _⟩ => ⟨S8000x32, .f32⟩
  | .local _ .vmem, ⟨18, _⟩ => ⟨S8000x32, .f32⟩
  | .local _ .vmem, ⟨19, _⟩ => ⟨S32x64, .f32⟩
  | .local _ .vmem, ⟨20, _⟩ => ⟨S64, .f32⟩
  | .local _ .vmem, ⟨21, _⟩ => ⟨S8000x64, .f32⟩
  | .local _ .vmem, ⟨22, _⟩ => ⟨S8000x64, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_call0_v0 : Ref sig .tc := ⟨.hbm, 17, rfl⟩
abbrev main_v1 : Ref sig .tc := ⟨.hbm, 18, rfl⟩
abbrev main_v2_0 : Ref sig .tc := ⟨.hbm, 19, rfl⟩
abbrev main_v2_1 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_c_1 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_2 : Ref sig .tc := ⟨.hbm, 35, rfl⟩
abbrev main_v14 : Ref sig .tc := ⟨.hbm, 36, rfl⟩
abbrev main_cst_3 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_4 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg3_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc1_sem0_0 : DmaSem sig := 17
abbrev cc1_sem0_1 : DmaSem sig := 18
abbrev cc1_sem1_0 : DmaSem sig := 19
abbrev cc1_sem2_0 : DmaSem sig := 20
abbrev cc1_sem3_0 : DmaSem sig := 21
abbrev cc1_sem3_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4000x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S500000_S500000x1 : S500000.ShapeCasts S500000x1
  pads_S100x128_S128x128_0280_000 : S100x128.Pads (![0, 0] : Fin 2 → Nat) ![28, 0] ![0, 0] S128x128
  h_S_ : 0 < S_.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  iota_S4000x128_d1_w32 : S4000x128.Iotas .tc 32 [1]
  broadcasts_S4000x1_S4000x128 : S4000x1.Broadcasts S4000x128
  natLt_1_32 : 1 < 32
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  inb_S4000x32_S4000x32_0_0 : ∀ a, (![0, 0] : Fin 2 → Nat) a + S4000x32.size a ≤ S4000x32.size a
  h_S4000x32 : 0 < S4000x32.numel
  inb_S32x64_S32x64_0_0 : ∀ a, (![0, 0] : Fin 2 → Nat) a + S32x64.size a ≤ S32x64.size a
  h_S32x64 : 0 < S32x64.numel
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  inb_S8000x32_S8000x32_0_0 : ∀ a, (![0, 0] : Fin 2 → Nat) a + S8000x32.size a ≤ S8000x32.size a
  h_S8000x32 : 0 < S8000x32.numel
  broadcasts_S1x64_S8000x64 : S1x64.Broadcasts S8000x64
  inb_S8000x64_S8000x64_0_0 : ∀ a, (![0, 0] : Fin 2 → Nat) a + S8000x64.size a ≤ S8000x64.size a
  h_S8000x64 : 0 < S8000x64.numel
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S500000x64 : S_.BroadcastsInDim S500000x64 (![] : Fin 0 → Fin S500000x64.rank)
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x64_0_1 : S500000x1.BroadcastsInDim S500000x64 (![0, 1] : Fin 2 → Fin S500000x64.rank)
  concatenates_S500000x64_S500000x64_S500000x128_d1 : Shape.Concatenates [S500000x64, S500000x64] S500000x128 1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  dot_S4000x128_S128x128_S4000x128_1_0_0_1_n_n_wf : DotDims.WF S4000x128 S128x128 S4000x128 [1] [0] [0] [1] [] []
  dot_S4000x32_S32x64_S4000x64_1_0_0_1_n_n_wf : DotDims.WF S4000x32 S32x64 S4000x64 [1] [0] [0] [1] [] []
  dot_S8000x32_S32x64_S8000x64_1_0_0_1_n_n_wf : DotDims.WF S8000x32 S32x64 S8000x64 [1] [0] [0] [1] [] []
  gather_S1000000x64_S2000000x1_S2000000x64_1_0_n_n_0_1_164_wf : GatherDims.WF S1000000x64 S2000000x1 S2000000x64 [1] [0] [] [0] [] 1 ![1, 64]
  scatter_S500000x64_S2000000x1_S2000000x64_1_0_0_1_wf : ScatterDims.WF S500000x64 S2000000x1 S2000000x64 [1] [0] [0] 1
  scatter_S500000_S2000000x1_S2000000_n_0_0_1_wf : ScatterDims.WF S500000 S2000000x1 S2000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S500000x128.size a
  hwx0_0 : ∀ i : grid0.Coords, EltTy.bits .f32 = 32 ∨ (Rect.block (s := S500000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S500000x1.size a
  hwx0_1 : ∀ i : grid0.Coords, EltTy.bits .i32 = 32 ∨ (Rect.block (s := S500000x1) S4000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x32.size a ≤ S500000x32.size a
  hwx0_2 : ∀ i : grid0.Coords, EltTy.bits .f32 = 32 ∨ (Rect.block (s := S500000x32) S4000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x64.size a ≤ S32x64.size a
  hwx0_8 : ∀ i : grid0.Coords, EltTy.bits .f32 = 32 ∨ (Rect.block (s := S32x64) S32x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64.size a ≤ S64.size a
  hwx0_9 : ∀ i : grid0.Coords, EltTy.bits .f32 = 32 ∨ (Rect.block (s := S64) S64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4000x128.size a ≤ S500000x128.size a
  hwx0_10 : ∀ i : grid0.Coords, EltTy.bits .f32 = 32 ∨ (Rect.block (s := S500000x128) S4000x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x64.size a ≤ S500000x64.size a
  hwx0_11 : ∀ i : grid0.Coords, EltTy.bits .f32 = 32 ∨ (Rect.block (s := S500000x64) S4000x64.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x32.size a ≤ S1000000x32.size a
  hwx1_0 : ∀ i : grid1.Coords, EltTy.bits .f32 = 32 ∨ (Rect.block (s := S1000000x32) S8000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x64.size a ≤ S32x64.size a
  hwx1_1 : ∀ i : grid1.Coords, EltTy.bits .f32 = 32 ∨ (Rect.block (s := S32x64) S32x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x64.size a ≤ S1000000x64.size a
  hwx1_3 : ∀ i : grid1.Coords, EltTy.bits .f32 = 32 ∨ (Rect.block (s := S1000000x64) S8000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S500000x128.size a
  hwx2_0 : ∀ i : grid2.Coords, EltTy.bits .f32 = 32 ∨ (Rect.block (s := S500000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S500000x128.size a
  hwx2_1 : ∀ i : grid2.Coords, EltTy.bits .f32 = 32 ∨ (Rect.block (s := S500000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S500000x128.size a
  hwx2_2 : ∀ i : grid2.Coords, EltTy.bits .f32 = 32 ∨ (Rect.block (s := S500000x128) S5000x128.size (cc2_transform_2 i) (hinb2_2 i)).WholeWords (EltTy.packing .f32)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x32_S32x64_S4000x64_1_0_0_1_n_n : DotDims S4000x32 S32x64 S4000x64 where
  lhsContracting := [1]
  rhsContracting := [0]
  lhsNonContracting := [0]
  rhsNonContracting := [1]
  lhsBatch := []
  rhsBatch := []
  wf := dot_S4000x32_S32x64_S4000x64_1_0_0_1_n_n_wf
def dot_S8000x32_S32x64_S8000x64_1_0_0_1_n_n : DotDims S8000x32 S32x64 S8000x64 where
  lhsContracting := [1]
  rhsContracting := [0]
  lhsNonContracting := [0]
  rhsNonContracting := [1]
  lhsBatch := []
  rhsBatch := []
  wf := dot_S8000x32_S32x64_S8000x64_1_0_0_1_n_n_wf
def gather_S1000000x64_S2000000x1_S2000000x64_1_0_n_n_0_1_164 : GatherDims S1000000x64 S2000000x1 S2000000x64 where
  offsetDims := [1]
  collapsedSliceDims := [0]
  operandBatchingDims := []
  startIndicesBatchingDims := []
  startIndexMap := [0]
  indexVectorDim := 1
  sliceSizes := ![1, 64]
  wf := gather_S1000000x64_S2000000x1_S2000000x64_1_0_n_n_0_1_164_wf
def scatter_S500000x64_S2000000x1_S2000000x64_1_0_0_1 : ScatterDims S500000x64 S2000000x1 S2000000x64 where
  updateWindowDims := [1]
  insertedWindowDims := [0]
  scatterDimsToOperandDims := [0]
  indexVectorDim := 1
  wf := scatter_S500000x64_S2000000x1_S2000000x64_1_0_0_1_wf
def scatter_S500000_S2000000x1_S2000000_n_0_0_1 : ScatterDims S500000 S2000000x1 S2000000 where
  updateWindowDims := []
  insertedWindowDims := [0]
  scatterDimsToOperandDims := [0]
  indexVectorDim := 1
  wf := scatter_S500000_S2000000x1_S2000000_n_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg11) S32x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg12) S64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v2_0) S4000x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v2_1) S4000x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg2) S8000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg13) S32x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg14) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S8000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v24) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S500000x128 : Shape := ⟨2, ![500000, 128]⟩
abbrev S500000x32 : Shape := ⟨2, ![500000, 32]⟩
abbrev S1000000x32 : Shape := ⟨2, ![1000000, 32]⟩
abbrev S500000 : Shape := ⟨1, ![500000]⟩
abbrev S2000000 : Shape := ⟨1, ![2000000]⟩
abbrev S100x128 : Shape := ⟨2, ![100, 128]⟩
abbrev S128x128 : Shape := ⟨2, ![128, 128]⟩
abbrev S128 : Shape := ⟨1, ![128]⟩
abbrev S32x64 : Shape := ⟨2, ![32, 64]⟩
abbrev S64 : Shape := ⟨1, ![64]⟩
abbrev S_ : Shape := ⟨0, ![]⟩
abbrev S500000x1 : Shape := ⟨2, ![500000, 1]⟩
abbrev S1x128 : Shape := ⟨2, ![1, 128]⟩
abbrev S500000x64 : Shape := ⟨2, ![500000, 64]⟩
abbrev S1x64 : Shape := ⟨2, ![1, 64]⟩
abbrev S1000000x64 : Shape := ⟨2, ![1000000, 64]⟩
abbrev S2000000x1 : Shape := ⟨2, ![2000000, 1]⟩
abbrev S2000000x64 : Shape := ⟨2, ![2000000, 64]⟩

abbrev nBuf : Space → Nat
  | .hbm => 81
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S500000x32, .f32⟩
  | .hbm, ⟨2, _⟩ => ⟨S1000000x32, .f32⟩
  | .hbm, ⟨3, _⟩ => ⟨S500000, .i32⟩
  | .hbm, ⟨4, _⟩ => ⟨S2000000, .i32⟩
  | .hbm, ⟨5, _⟩ => ⟨S2000000, .i32⟩
  | .hbm, ⟨6, _⟩ => ⟨S100x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S32x64, .f32⟩
  | .hbm, ⟨12, _⟩ => ⟨S64, .f32⟩
  | .hbm, ⟨13, _⟩ => ⟨S32x64, .f32⟩
  | .hbm, ⟨14, _⟩ => ⟨S64, .f32⟩
  | .hbm, ⟨15, _⟩ => ⟨S_, .i32⟩
  | .hbm, ⟨16, _⟩ => ⟨S500000, .i32⟩
  | .hbm, ⟨17, _⟩ => ⟨S500000, .i1⟩
  | .hbm, ⟨18, _⟩ => ⟨S_, .i32⟩
  | .hbm, ⟨19, _⟩ => ⟨S500000, .i32⟩
  | .hbm, ⟨20, _⟩ => ⟨S500000, .i32⟩
  | .hbm, ⟨21, _⟩ => ⟨S500000, .i32⟩
  | .hbm, ⟨22, _⟩ => ⟨S500000x1, .i32⟩
  | .hbm, ⟨23, _⟩ => ⟨S500000x128, .f32⟩
  | .hbm, ⟨24, _⟩ => ⟨S500000x128, .f32⟩
  | .hbm, ⟨25, _⟩ => ⟨S1x128, .f32⟩
  | .hbm, ⟨26, _⟩ => ⟨S500000x128, .f32⟩
  | .hbm, ⟨27, _⟩ => ⟨S500000x128, .f32⟩
  | .hbm, ⟨28, _⟩ => ⟨S_, .f32⟩
  | .hbm, ⟨29, _⟩ => ⟨S500000x128, .f32⟩
  | .hbm, ⟨30, _⟩ => ⟨S500000x128, .f32⟩
  | .hbm, ⟨31, _⟩ => ⟨S500000x128, .f32⟩
  | .hbm, ⟨32, _⟩ => ⟨S500000x128, .f32⟩
  | .hbm, ⟨33, _⟩ => ⟨S1x128, .f32⟩
  | .hbm, ⟨34, _⟩ => ⟨S500000x128, .f32⟩
  | .hbm, ⟨35, _⟩ => ⟨S500000x128, .f32⟩
  | .hbm, ⟨36, _⟩ => ⟨S1000000x32, .i1⟩
  | .hbm, ⟨37, _⟩ => ⟨S_, .f32⟩
  | .hbm, ⟨38, _⟩ => ⟨S_, .f32⟩
  | .hbm, ⟨39, _⟩ => ⟨S1000000x32, .f32⟩
  | .hbm, ⟨40, _⟩ => ⟨S1000000x32, .f32⟩
  | .hbm, ⟨41, _⟩ => ⟨S500000x32, .i1⟩
  | .hbm, ⟨42, _⟩ => ⟨S_, .f32⟩
  | .hbm, ⟨43, _⟩ => ⟨S_, .f32⟩
  | .hbm, ⟨44, _⟩ => ⟨S500000x32, .f32⟩
  | .hbm, ⟨45, _⟩ => ⟨S500000x32, .f32⟩
  | .hbm, ⟨46, _⟩ => ⟨S500000x64, .f32⟩
  | .hbm, ⟨47, _⟩ => ⟨S1x64, .f32⟩
  | .hbm, ⟨48, _⟩ => ⟨S500000x64, .f32⟩
  | .hbm, ⟨49, _⟩ => ⟨S500000x64, .f32⟩
  | .hbm, ⟨50, _⟩ => ⟨S1000000x64, .f32⟩
  | .hbm, ⟨51, _⟩ => ⟨S1x64, .f32⟩
  | .hbm, ⟨52, _⟩ => ⟨S1000000x64, .f32⟩
  | .hbm, ⟨53, _⟩ => ⟨S1000000x64, .f32⟩
  | .hbm, ⟨54, _⟩ => ⟨S_, .i32⟩
  | .hbm, ⟨55, _⟩ => ⟨S2000000, .i32⟩
  | .hbm, ⟨56, _⟩ => ⟨S2000000, .i1⟩
  | .hbm, ⟨57, _⟩ => ⟨S_, .i32⟩
  | .hbm, ⟨58, _⟩ => ⟨S2000000, .i32⟩
  | .hbm, ⟨59, _⟩ => ⟨S2000000, .i32⟩
  | .hbm, ⟨60, _⟩ => ⟨S2000000, .i32⟩
  | .hbm, ⟨61, _⟩ => ⟨S2000000x1, .i32⟩
  | .hbm, ⟨62, _⟩ => ⟨S2000000x64, .f32⟩
  | .hbm, ⟨63, _⟩ => ⟨S_, .f32⟩
  | .hbm, ⟨64, _⟩ => ⟨S500000x64, .f32⟩
  | .hbm, ⟨65, _⟩ => ⟨S2000000x1, .i32⟩
  | .hbm, ⟨66, _⟩ => ⟨S500000x64, .f32⟩
  | .hbm, ⟨67, _⟩ => ⟨S_, .f32⟩
  | .hbm, ⟨68, _⟩ => ⟨S2000000, .f32⟩
  | .hbm, ⟨69, _⟩ => ⟨S_, .f32⟩
  | .hbm, ⟨70, _⟩ => ⟨S500000, .f32⟩
  | .hbm, ⟨71, _⟩ => ⟨S2000000x1, .i32⟩
  | .hbm, ⟨72, _⟩ => ⟨S500000, .f32⟩
  | .hbm, ⟨73, _⟩ => ⟨S_, .f32⟩
  | .hbm, ⟨74, _⟩ => ⟨S500000, .f32⟩
  | .hbm, ⟨75, _⟩ => ⟨S500000, .f32⟩
  | .hbm, ⟨76, _⟩ => ⟨S500000x1, .f32⟩
  | .hbm, ⟨77, _⟩ => ⟨S500000x64, .f32⟩
  | .hbm, ⟨78, _⟩ => ⟨S500000x64, .f32⟩
  | .hbm, ⟨79, _⟩ => ⟨S500000x128, .f32⟩
  | .hbm, ⟨80, _⟩ => ⟨S500000x128, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call0_cst : Ref sig .tc := ⟨.hbm, 28, rfl⟩
abbrev main_call0_v0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_v18 : Ref sig .tc := ⟨.hbm, 40, rfl⟩
abbrev main_v19 : Ref sig .tc := ⟨.hbm, 41, rfl⟩
abbrev main_cst_1 : Ref sig .tc := ⟨.hbm, 42, rfl⟩
abbrev main_call2_v0 : Ref sig .tc := ⟨.hbm, 43, rfl⟩
abbrev main_call2_v1 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c_2 : Ref sig .tc := ⟨.hbm, 54, rfl⟩
abbrev main_v29 : Ref sig .tc := ⟨.hbm, 55, rfl⟩
abbrev main_v30 : Ref sig .tc := ⟨.hbm, 56, rfl⟩
abbrev main_c_3 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_4 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_5 : Ref sig .tc := ⟨.hbm, 67, rfl⟩
abbrev main_v39 : Ref sig .tc := ⟨.hbm, 68, rfl⟩
abbrev main_cst_6 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_7 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S_S1000000x32 : S_.BroadcastsInDim S1000000x32 (![] : Fin 0 → Fin S1000000x32.rank)
  bcast_S_S500000x32 : S_.BroadcastsInDim S500000x32 (![] : Fin 0 → Fin S500000x32.rank)
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  bcast_S1x64_S1000000x64_0_1 : S1x64.BroadcastsInDim S1000000x64 (![0, 1] : Fin 2 → Fin S1000000x64.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S500000x64 : S_.BroadcastsInDim S500000x64 (![] : Fin 0 → Fin S500000x64.rank)
  bcast_S500000x1_S500000x64_0_1 : S500000x1.BroadcastsInDim S500000x64 (![0, 1] : Fin 2 → Fin S500000x64.rank)
  concatenates_S500000x64_S500000x64_S500000x128_d1 : Shape.Concatenates [S500000x64, S500000x64] S500000x128 1
  gather_S100x128_S500000x1_S500000x128_1_0_n_n_0_1_1128_wf : GatherDims.WF S100x128 S500000x1 S500000x128 [1] [0] [] [0] [] 1 ![1, 128]
  dot_S500000x128_S128x128_S500000x128_1_0_0_1_n_n_wf : DotDims.WF S500000x128 S128x128 S500000x128 [1] [0] [0] [1] [] []
  dot_S500000x32_S32x64_S500000x64_1_0_0_1_n_n_wf : DotDims.WF S500000x32 S32x64 S500000x64 [1] [0] [0] [1] [] []
  dot_S1000000x32_S32x64_S1000000x64_1_0_0_1_n_n_wf : DotDims.WF S1000000x32 S32x64 S1000000x64 [1] [0] [0] [1] [] []
  gather_S1000000x64_S2000000x1_S2000000x64_1_0_n_n_0_1_164_wf : GatherDims.WF S1000000x64 S2000000x1 S2000000x64 [1] [0] [] [0] [] 1 ![1, 64]
  scatter_S500000x64_S2000000x1_S2000000x64_1_0_0_1_wf : ScatterDims.WF S500000x64 S2000000x1 S2000000x64 [1] [0] [0] 1
  scatter_S500000_S2000000x1_S2000000_n_0_0_1_wf : ScatterDims.WF S500000 S2000000x1 S2000000 [] [0] [0] 1

variable [Facts₀]

def gather_S100x128_S500000x1_S500000x128_1_0_n_n_0_1_1128 : GatherDims S100x128 S500000x1 S500000x128 where
  offsetDims := [1]
  collapsedSliceDims := [0]
  operandBatchingDims := []
  startIndicesBatchingDims := []
  startIndexMap := [0]
  indexVectorDim := 1
  sliceSizes := ![1, 128]
  wf := gather_S100x128_S500000x1_S500000x128_1_0_n_n_0_1_1128_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def dot_S500000x32_S32x64_S500000x64_1_0_0_1_n_n : DotDims S500000x32 S32x64 S500000x64 where
  lhsContracting := [1]
  rhsContracting := [0]
  lhsNonContracting := [0]
  rhsNonContracting := [1]
  lhsBatch := []
  rhsBatch := []
  wf := dot_S500000x32_S32x64_S500000x64_1_0_0_1_n_n_wf
def dot_S1000000x32_S32x64_S1000000x64_1_0_0_1_n_n : DotDims S1000000x32 S32x64 S1000000x64 where
  lhsContracting := [1]
  rhsContracting := [0]
  lhsNonContracting := [0]
  rhsNonContracting := [1]
  lhsBatch := []
  rhsBatch := []
  wf := dot_S1000000x32_S32x64_S1000000x64_1_0_0_1_n_n_wf
def gather_S1000000x64_S2000000x1_S2000000x64_1_0_n_n_0_1_164 : GatherDims S1000000x64 S2000000x1 S2000000x64 where
  offsetDims := [1]
  collapsedSliceDims := [0]
  operandBatchingDims := []
  startIndicesBatchingDims := []
  startIndexMap := [0]
  indexVectorDim := 1
  sliceSizes := ![1, 64]
  wf := gather_S1000000x64_S2000000x1_S2000000x64_1_0_n_n_0_1_164_wf
def scatter_S500000x64_S2000000x1_S2000000x64_1_0_0_1 : ScatterDims S500000x64 S2000000x1 S2000000x64 where
  updateWindowDims := [1]
  insertedWindowDims := [0]
  scatterDimsToOperandDims := [0]
  indexVectorDim := 1
  wf := scatter_S500000x64_S2000000x1_S2000000x64_1_0_0_1_wf
def scatter_S500000_S2000000x1_S2000000_n_0_0_1 : ScatterDims S500000 S2000000x1 S2000000 where
  updateWindowDims := []
  insertedWindowDims := [0]
  scatterDimsToOperandDims := [0]
  indexVectorDim := 1
  wf := scatter_S500000_S2000000x1_S2000000_n_0_0_1_wf

class Facts : Prop extends Facts₀ where

variable [Facts]
-- ==== Proof.KBound.lean ====
/-
  What the kernel program's buffers hold at the boundaries between its host stretches and its three regions, read back
  to the launch memory: the arguments are never written; the degree column is the degree vector reshaped; the padded
  table is the embedding table with 28 zero rows appended; and the host stretch between the second and the third region
  (gather by row index, the two scatter-adds, the division, the concatenation) is ONE function `tail` of the arrays it
  reads.
-/
import proofs.«425976_j9320079032502_1_alg».proof.Proof.Gen.KernelIdeal.Frame
import Idealize.ShloMosaic.Lib.StableHlo.Run
import Idealize.ShloMosaic.Lib.Pipeline.Value
import Idealize.ShloMosaic.Lib.KernelVsHost

set_option maxRecDepth 16384

noncomputable section

namespace Cert.KernelIdeal.KBound

open Cert.KernelIdeal Cert.KernelIdeal.Gen Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## Region 0's entry contents -/

/-- The degree column is the degree vector reshaped to one column. -/
theorem V2_v0 (c : Dev nD) : V2 (F := Ideal) m ρ c main_v0
    = shapeCast S500000x1 (m ((c : Thread nD τ).loc main_arg3)) shapeCasts_S500000_S500000x1 := by
  show StableHlo.after hostOps0_1 (StableHlo.after hostOps0 (W0 m ρ c)) (Proc.devRef .tc main_v0) = _
  after_results
  rfl

/-- Row r of the degree column is word r of the degree vector. -/
theorem V2_v0_apply (c : Dev nD) (r : Fin 500000) :
    (V2 (F := Ideal) m ρ c main_v0 : S500000x1.Idx → BitVec 32) (ix2 r (0 : Fin 1))
      = (m ((c : Thread nD τ).loc main_arg3) : S500000.Idx → BitVec 32) (ix1 r) := by
  rw [V2_v0]
  exact shapeCast_apply _ shapeCasts_S500000_S500000x1 (ix2 r (0 : Fin 1)) (ix1 r) (by
    rw [Shape.rowMajor_val_two, Shape.rowMajor_val_one]
    show r.val = r.val * 1 + 0
    omega)

/-- The padded table is the embedding table with zero rows appended below. -/
theorem V2_v1 (c : Dev nD) : V2 (F := Ideal) m ρ c main_v1
    = pad S128x128 ![0, 0] ![28, 0] ![0, 0] (m ((c : Thread nD τ).loc main_arg6)) (sitofp (F := Ideal) .f32 (constantI S_ 32 0#32)) pads_S100x128_S128x128_0280_000 h_S_ := by
  show StableHlo.after hostOps0_1 (StableHlo.after hostOps0 (W0 m ρ c)) (Proc.devRef .tc main_v1) = _
  after_results
  rfl

/-- Its first hundred rows are the embedding table's. -/
theorem V2_v1_apply (c : Dev nD) (r : Fin 100) (q : Fin 128) :
    (V2 (F := Ideal) m ρ c main_v1 : S128x128.Idx → EReal) (ix2 (⟨r.val, by omega⟩ : Fin 128) q)
      = (m ((c : Thread nD τ).loc main_arg6) : S100x128.Idx → EReal) (ix2 r q) := by
  rw [V2_v1]
  exact pad_apply_of_inside _ _ _ _ _ pads_S100x128_S128x128_0280_000 h_S_ _ (ix2 r q) (fun a => by
    match a with
    | ⟨0, _⟩ => show r.val = 0 + r.val * (0 + 1); omega
    | ⟨1, _⟩ => show q.val = 0 + q.val * (0 + 1); omega)

theorem V2_arg0 (c : Dev nD) : V2 (F := Ideal) m ρ c main_arg0 = m ((c : Thread nD τ).loc main_arg0) := by
  show StableHlo.after hostOps0_1 (StableHlo.after hostOps0 (W0 m ρ c)) (Proc.devRef .tc main_arg0) = _
  after_results
theorem V2_arg1 (c : Dev nD) : V2 (F := Ideal) m ρ c main_arg1 = m ((c : Thread nD τ).loc main_arg1) := by
  show StableHlo.after hostOps0_1 (StableHlo.after hostOps0 (W0 m ρ c)) (Proc.devRef .tc main_arg1) = _
  after_results
theorem V2_arg7 (c : Dev nD) : V2 (F := Ideal) m ρ c main_arg7 = m ((c : Thread nD τ).loc main_arg7) := by
  show StableHlo.after hostOps0_1 (StableHlo.after hostOps0 (W0 m ρ c)) (Proc.devRef .tc main_arg7) = _
  after_results
theorem V2_arg8 (c : Dev nD) : V2 (F := Ideal) m ρ c main_arg8 = m ((c : Thread nD τ).loc main_arg8) := by
  show StableHlo.after hostOps0_1 (StableHlo.after hostOps0 (W0 m ρ c)) (Proc.devRef .tc main_arg8) = _
  after_results
theorem V2_arg9 (c : Dev nD) : V2 (F := Ideal) m ρ c main_arg9 = m ((c : Thread nD τ).loc main_arg9) := by
  show StableHlo.after hostOps0_1 (StableHlo.after hostOps0 (W0 m ρ c)) (Proc.devRef .tc main_arg9) = _
  after_results
theorem V2_arg10 (c : Dev nD) : V2 (F := Ideal) m ρ c main_arg10 = m ((c : Thread nD τ).loc main_arg10) := by
  show StableHlo.after hostOps0_1 (StableHlo.after hostOps0 (W0 m ρ c)) (Proc.devRef .tc main_arg10) = _
  after_results
theorem V2_arg11 (c : Dev nD) : V2 (F := Ideal) m ρ c main_arg11 = m ((c : Thread nD τ).loc main_arg11) := by
  show StableHlo.after hostOps0_1 (StableHlo.after hostOps0 (W0 m ρ c)) (Proc.devRef .tc main_arg11) = _
  after_results
theorem V2_arg12 (c : Dev nD) : V2 (F := Ideal) m ρ c main_arg12 = m ((c : Thread nD τ).loc main_arg12) := by
  show StableHlo.after hostOps0_1 (StableHlo.after hostOps0 (W0 m ρ c)) (Proc.devRef .tc main_arg12) = _
  after_results

/-! ## Region 1's entry contents: region 0 writes none of region 1's inputs -/

theorem V3_arg2 (c : Dev nD) : V3 (F := Ideal) m ρ c main_arg2 = m ((c : Thread nD τ).loc main_arg2) := by
  refine (W3_of_ne m ρ c main_arg2 (by decide)).trans ?_
  show StableHlo.after hostOps0_1 (StableHlo.after hostOps0 (W0 m ρ c)) (Proc.devRef .tc main_arg2) = _
  after_results
theorem V3_arg13 (c : Dev nD) : V3 (F := Ideal) m ρ c main_arg13 = m ((c : Thread nD τ).loc main_arg13) := by
  refine (W3_of_ne m ρ c main_arg13 (by decide)).trans ?_
  show StableHlo.after hostOps0_1 (StableHlo.after hostOps0 (W0 m ρ c)) (Proc.devRef .tc main_arg13) = _
  after_results
theorem V3_arg14 (c : Dev nD) : V3 (F := Ideal) m ρ c main_arg14 = m ((c : Thread nD τ).loc main_arg14) := by
  refine (W3_of_ne m ρ c main_arg14 (by decide)).trans ?_
  show StableHlo.after hostOps0_1 (StableHlo.after hostOps0 (W0 m ρ c)) (Proc.devRef .tc main_arg14) = _
  after_results

/-! ## After region 1 -/

theorem W4_v3 (c : Dev nD) : W4 (F := Ideal) m ρ c (Proc.devRef .tc main_v3) = (dat1 (V3 m ρ) c).arrAt 3 cfg1.N :=
  W4_arr m ρ c 3
theorem W4_v2_0 (c : Dev nD) : W4 (F := Ideal) m ρ c (Proc.devRef .tc main_v2_0) = (dat0 (V2 m ρ) c).arrAt 10 cfg0.N :=
  (W4_of_ne m ρ c main_v2_0 (by decide)).trans (W3_arr m ρ c 10)
theorem W4_v2_1 (c : Dev nD) : W4 (F := Ideal) m ρ c (Proc.devRef .tc main_v2_1) = (dat0 (V2 m ρ) c).arrAt 11 cfg0.N :=
  (W4_of_ne m ρ c main_v2_1 (by decide)).trans (W3_arr m ρ c 11)
theorem W4_arg4 (c : Dev nD) : W4 (F := Ideal) m ρ c (Proc.devRef .tc main_arg4) = m ((c : Thread nD τ).loc main_arg4) := by
  refine (W4_of_ne m ρ c main_arg4 (by decide)).trans ((W3_of_ne m ρ c main_arg4 (by decide)).trans ?_)
  show StableHlo.after hostOps0_1 (StableHlo.after hostOps0 (W0 m ρ c)) (Proc.devRef .tc main_arg4) = _
  after_results
theorem W4_arg5 (c : Dev nD) : W4 (F := Ideal) m ρ c (Proc.devRef .tc main_arg5) = m ((c : Thread nD τ).loc main_arg5) := by
  refine (W4_of_ne m ρ c main_arg5 (by decide)).trans ((W3_of_ne m ρ c main_arg5 (by decide)).trans ?_)
  show StableHlo.after hostOps0_1 (StableHlo.after hostOps0 (W0 m ρ c)) (Proc.devRef .tc main_arg5) = _
  after_results

/-! ## Region 2's entry contents -/

/-- The host stretch between the second and the third region, as one function of the arrays it reads: the atom
    encodings gathered by row index (a negative index counted from the end), summed into their cliques and divided by
    the clique sizes (at least one), beside the tree encodings. -/
def tail (pe : FVec Ideal S1000000x64 .f32) (tpe : FVec Ideal S500000x64 .f32) (row col : IVec S2000000 32) : FVec Ideal S500000x128 .f32 :=
  concatenate S500000x128 1 [⟨S500000x64, Host.divf
      (Host.scatterAdd scatter_S500000x64_S2000000x1_S2000000x64_1_0_0_1 (broadcastInDim S500000x64 ![] bcast_S_S500000x64 (constant (F := Ideal) S_ .f32 0x00000000#32))
        (broadcastInDim S2000000x1 ![0] bcast_S2000000_S2000000x1_0 col)
        (Host.gather gather_S1000000x64_S2000000x1_S2000000x64_1_0_n_n_0_1_164 pe
          (broadcastInDim S2000000x1 ![0] bcast_S2000000_S2000000x1_0 (select (cmpi .slt row (broadcastInDim S2000000 ![] bcast_S_S2000000 (constantI S_ 32 0#32))) (addi row (broadcastInDim S2000000 ![] bcast_S_S2000000 (constantI S_ 32 1000000#32))) row))))
      (broadcastInDim S500000x64 ![0, 1] bcast_S500000x1_S500000x64_0_1 (broadcastInDim S500000x1 ![0] bcast_S500000_S500000x1_0
        (maximumf (Host.scatterAdd scatter_S500000_S2000000x1_S2000000_n_0_0_1 (broadcastInDim S500000 ![] bcast_S_S500000 (constant (F := Ideal) S_ .f32 0x00000000#32))
          (broadcastInDim S2000000x1 ![0] bcast_S2000000_S2000000x1_0 col) (broadcastInDim S2000000 ![] bcast_S_S2000000 (constant (F := Ideal) S_ .f32 0x3F800000#32)))
          (broadcastInDim S500000 ![] bcast_S_S500000 (constant (F := Ideal) S_ .f32 0x3F800000#32)))))⟩,
    ⟨S500000x64, tpe⟩] concatenates_S500000x64_S500000x64_S500000x128_d1

theorem V5_v2_0 (c : Dev nD) : V5 (F := Ideal) m ρ c main_v2_0 = W4 m ρ c (Proc.devRef .tc main_v2_0) := by
  show StableHlo.after hostOps2 (W4 m ρ c) (Proc.devRef .tc main_v2_0) = _
  after_results

set_option maxHeartbeats 4000000 in
theorem V5_v23 (c : Dev nD) : V5 (F := Ideal) m ρ c main_v23
    = tail (W4 m ρ c (Proc.devRef .tc main_v3)) (W4 m ρ c (Proc.devRef .tc main_v2_1)) (W4 m ρ c (Proc.devRef .tc main_arg4)) (W4 m ρ c (Proc.devRef .tc main_arg5)) := by
  unfold tail
  show StableHlo.after hostOps2 (W4 m ρ c) (Proc.devRef .tc main_v23) = _
  after_results

/-! ## After region 2 -/

theorem W6_v24 (c : Dev nD) : W6 (F := Ideal) m ρ c (Proc.devRef .tc main_v24) = (dat2 (V5 m ρ) c).arrAt 2 cfg2.N :=
  W6_arr m ρ c 2

end Cert.KernelIdeal.KBound

end
-- ==== Proof.Spec.lean ====
/-
  The mathematics both programs compute, as functions of whole arrays over the extended reals.

  An affine map of rows: entry (p, q) of `lin x w b` is the sum over k of x (p, k) · w (k, q), plus b q.
  Taking rows of a table by an index vector: row p of `rows tbl ix` is row ix p of the table.
  The clique features: `xout` adds to each input row the positive part of an affine map of that row's table row
  and maps the sum affinely once more.
-/
import Idealize.ShloMosaic.Lib.ValueIdx
import Idealize.ShloMosaic.PureOps.Ideal

noncomputable section

open scoped BigOperators

namespace Cert.Spec

open Idealize.ShloMosaic Idealize.ShloMosaic.ValueIdx

/-- Rows times a matrix plus a bias row. -/
def lin {M K N : Nat} (x : FVec Ideal ⟨2, ![M, K]⟩ .f32) (w : FVec Ideal ⟨2, ![K, N]⟩ .f32)
    (b : FVec Ideal ⟨1, ![N]⟩ .f32) : FVec Ideal ⟨2, ![M, N]⟩ .f32 :=
  fun j => (∑ k : Fin K, x (ix2 (j 0) k) * w (ix2 k (j 1))) + b (ix1 (j 1))

theorem lin_apply {M K N : Nat} (x : FVec Ideal ⟨2, ![M, K]⟩ .f32) (w : FVec Ideal ⟨2, ![K, N]⟩ .f32)
    (b : FVec Ideal ⟨1, ![N]⟩ .f32) (p : Fin M) (q : Fin N) :
    lin x w b (ix2 p q) = (∑ k : Fin K, x (ix2 p k) * w (ix2 k q)) + b (ix1 q) := rfl

/-- Row p of the result is the table's row named by word p of the index vector (zero when the word names no row). -/
def rows {R C n : Nat} (tbl : FVec Ideal ⟨2, ![R, C]⟩ .f32) (ix : IVec ⟨1, ![n]⟩ 32) : FVec Ideal ⟨2, ![n, C]⟩ .f32 :=
  fun j => if h : (ix (ix1 (j 0))).toNat < R then tbl (ix2 ⟨(ix (ix1 (j 0))).toNat, h⟩ (j 1)) else 0

theorem rows_apply {R C n : Nat} (tbl : FVec Ideal ⟨2, ![R, C]⟩ .f32) (ix : IVec ⟨1, ![n]⟩ 32) (p : Fin n) (q : Fin C)
    (h : (ix (ix1 p)).toNat < R) : rows tbl ix (ix2 p q) = tbl (ix2 ⟨(ix (ix1 p)).toNat, h⟩ q) := by
  show (if h : (ix (ix1 p)).toNat < R then tbl (ix2 ⟨(ix (ix1 p)).toNat, h⟩ q) else 0) = _
  rw [dif_pos h]

/-- The positive part of the affine map of the gathered table rows. -/
def deg {R H n : Nat} (emb : FVec Ideal ⟨2, ![R, H]⟩ .f32) (td : IVec ⟨1, ![n]⟩ 32) (w1 : FVec Ideal ⟨2, ![H, H]⟩ .f32)
    (b1 : FVec Ideal ⟨1, ![H]⟩ .f32) : FVec Ideal ⟨2, ![n, H]⟩ .f32 :=
  fun j => max (lin (rows emb td) w1 b1 j) 0

/-- The clique features after the merge. -/
def xout {R H n : Nat} (x0 : FVec Ideal ⟨2, ![n, H]⟩ .f32) (td : IVec ⟨1, ![n]⟩ 32) (emb : FVec Ideal ⟨2, ![R, H]⟩ .f32)
    (w1 : FVec Ideal ⟨2, ![H, H]⟩ .f32) (b1 : FVec Ideal ⟨1, ![H]⟩ .f32) (w2 : FVec Ideal ⟨2, ![H, H]⟩ .f32)
    (b2 : FVec Ideal ⟨1, ![H]⟩ .f32) : FVec Ideal ⟨2, ![n, H]⟩ .f32 :=
  lin (fun j => x0 j + deg emb td w1 b1 j) w2 b2

end Cert.Spec

end
-- ==== Proof.LibPlainDot.lean ====
/-
  The plain matrix product, rows times contraction by contraction times columns, read at an entry.

  For the dimension numbers "contract the left operand's axis 1 with the right operand's axis 0, no batch axis", the
  product of an M-by-K and a K-by-N matrix has at entry (p, q) the sum over k of left (p, k) times right (k, q).  At the
  exact values this holds of the host's product and of a kernel's product accumulated into a zero splat alike, on all
  extended reals, because only 0 + x = x is used.
-/
import Idealize.ShloMosaic.Lib.ValueIdx
import Idealize.ShloMosaic.Lib.KernelVsHost
import Idealize.ShloMosaic.PureOps.Ideal.Laws

noncomputable section

namespace Idealize.ShloMosaic.PlainDot

open Idealize.ShloMosaic.ValueIdx

variable {M K N : Nat} {φ₁ φ₂ : FTy}

/-- The left operand's index at output entry j and contraction step k: row of j, column k. -/
theorem lhsIdx_plain (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single rfl j _).trans hk

/-- The right operand's index at output entry j and contraction step k: row k, column of j. -/
theorem rhsIdx_plain (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ => rfl

/-- The host's plain product at an entry is the sum over the contraction of left (row, k) times right (k, column). -/
theorem dotGeneral_plain_apply (prec : Option ContractPrecision) (l : FVec Ideal ⟨2, ![M, K]⟩ φ₁)
    (r : FVec Ideal ⟨2, ![K, N]⟩ φ₂) (j : (⟨2, ![M, N]⟩ : Shape).Idx) :
    Host.dotGeneral (DotDims.plain M K N) prec l r j = ∑ k : Fin K, l (ix2 (j 0) k) * r (ix2 k (j 1)) := by
  simp only [Host.dotGeneral]
  rw [Ideal.dotGeneral_apply, ← Equiv.sum_comp (contrEquiv1 (DotDims.plain M K N) K rfl rfl).symm]
  refine Finset.sum_congr rfl fun k _ => ?_
  rw [lhsIdx_plain, rhsIdx_plain]
  rfl

/-- A kernel's plain product accumulated into a zero splat, at an entry: the same sum. -/
theorem matmul_zero_plain_apply (prec : Option ContractPrecision) (l : FVec Ideal ⟨2, ![M, K]⟩ φ₁)
    (r : FVec Ideal ⟨2, ![K, N]⟩ φ₂) (j : (⟨2, ![M, N]⟩ : Shape).Idx) :
    matmul (DotDims.plain M K N) prec l r (constant ⟨2, ![M, N]⟩ .f32 0x00000000#32) j
      = ∑ k : Fin K, l (ix2 (j 0) k) * r (ix2 k (j 1)) := by
  rw [matmul_zero_eq_dotGeneral, dotGeneral_plain_apply]

end Idealize.ShloMosaic.PlainDot
-- ==== Proof.LibOneHotDot.lean ====
/-
  Selecting a row of a table by a matrix product: a 0/1 matrix whose row p compares one word w with the column
  numbers 0, 1, …, K − 1 has a single one, at column w, so row p of its product with a [K × N] table is row w of the
  table.

  The matrix is built the way a kernel builds it: the comparison bit widened to a word, converted to a float, and
  narrowed to bf16; at the exact values the bit reads 1 or 0 and the narrowing changes nothing. The sum over the
  contraction then has one term that is 1 · x and K − 1 terms that are 0 · x, and on the extended reals 0 · x = 0 for
  every x, the infinities included, so nothing is asked of the table's entries.
-/
import Idealize.ShloMosaic.Lib.ValueIdx
import Idealize.ShloMosaic.Lib.KernelVsHost
import Idealize.ShloMosaic.Lib.StableHlo.Predicate
import Idealize.ShloMosaic.PureOps.Ideal.Laws
import proofs.«425976_j9320079032502_1_alg».proof.Proof.LibPlainDot

noncomputable section

namespace Cert.LibOneHotDot

open Idealize.ShloMosaic Idealize.ShloMosaic.ValueIdx

/-- The comparison bit of two words, widened, read signed and converted: 1 when the words are equal, else 0. -/
theorem eq_bit_value (a b : BitVec 32) :
    ((((IntOp.cmpi .eq a b).setWidth 32).toInt : ℝ) : EReal) = if a = b then 1 else 0 := by
  rw [toInt_setWidth_bit]
  by_cases h : a = b
  · rw [if_pos h, StableHlo.Predicate.cmpi_eq_iff.2 h]
    simp
  · have h0 : IntOp.cmpi .eq a b = 0#1 :=
      eq_zero_of_ne_one fun h1 => h (StableHlo.Predicate.cmpi_eq_iff.1 h1)
    rw [if_neg h, h0]
    simp

/-- A word is the word of a column number below 2³² exactly when its value is that number. -/
theorem eq_ofNat_iff (w : BitVec 32) (k : Nat) (hk : k < 2 ^ 32) : w = BitVec.ofNat 32 k ↔ w.toNat = k := by
  constructor
  · intro h
    rw [h, BitVec.toNat_ofNat]
    exact Nat.mod_eq_of_lt hk
  · intro h
    apply BitVec.eq_of_toNat_eq
    rw [BitVec.toNat_ofNat, h]
    exact (Nat.mod_eq_of_lt hk).symm

variable {M K N : Nat} {φ : FTy}

/-- Row p of the product of the one-hot matrix of the word w with a table is row w of the table. A holds w all along
    its row p, B holds the column numbers along it, and w names the row r of the table. -/
theorem onehot_matmul_apply (hK : K ≤ 2 ^ 32) (A B : IVec ⟨2, ![M, K]⟩ 32) (feat : FVec Ideal ⟨2, ![K, N]⟩ φ)
    (h1 : 1 < 32) (hb : FTy.bits .bf16 < FTy.bits .f32) (p : Fin M) (q : Fin N) (w : BitVec 32) (r : Fin K)
    (hw : w.toNat = r.val)
    (hA : ∀ k : Fin K, A (ix2 p k) = w) (hB : ∀ k : Fin K, B (ix2 p k) = BitVec.ofNat 32 k.val) :
    matmul (DotDims.plain M K N) none
        (truncf .bf16 (sitofp .f32 (extui 32 (cmpi .eq A B) h1) : FVec Ideal ⟨2, ![M, K]⟩ .f32) hb)
        feat (constant ⟨2, ![M, N]⟩ .f32 0x00000000#32) (ix2 p q)
      = feat (ix2 r q) := by
  rw [PlainDot.matmul_zero_plain_apply]
  have entry : ∀ k : Fin K,
      (truncf .bf16 (sitofp .f32 (extui 32 (cmpi .eq A B) h1) : FVec Ideal ⟨2, ![M, K]⟩ .f32) hb) (ix2 p k)
        = if k = r then (1 : EReal) else 0 := by
    intro k
    show ((((IntOp.cmpi .eq (A (ix2 p k)) (B (ix2 p k))).setWidth 32).toInt : ℝ) : EReal) = _
    rw [eq_bit_value, hA, hB]
    have hk : k.val < 2 ^ 32 := lt_of_lt_of_le k.isLt hK
    by_cases hkr : k = r
    · rw [if_pos hkr, if_pos ((eq_ofNat_iff w k.val hk).2 (by rw [hw, hkr]))]
    · rw [if_neg hkr, if_neg fun h => hkr (Fin.ext ((eq_ofNat_iff w k.val hk).1 h ▸ hw ▸ rfl))]
  rw [Finset.sum_eq_single r]
  · show (truncf .bf16 (sitofp .f32 (extui 32 (cmpi .eq A B) h1) : FVec Ideal ⟨2, ![M, K]⟩ .f32) hb) (ix2 p r)
        * feat (ix2 r q) = _
    rw [entry, if_pos rfl, one_mul]
  · intro k _ hk
    show (truncf .bf16 (sitofp .f32 (extui 32 (cmpi .eq A B) h1) : FVec Ideal ⟨2, ![M, K]⟩ .f32) hb) (ix2 p k)
        * feat (ix2 k q) = 0
    rw [entry, if_neg hk, zero_mul]
  · intro h
    exact absurd (Finset.mem_univ r) h

end Cert.LibOneHotDot

end
-- ==== Proof.KValX.lean ====
/-
  The merged clique features as the first region leaves them: every block of 4000 rows that a grid point writes back
  is the same rows of ONE whole-array function of the region's input arrays, so the array ends holding that function.
-/
import proofs.«425976_j9320079032502_1_alg».proof.Proof.Gen.KernelIdeal.Frame
import proofs.«425976_j9320079032502_1_alg».proof.Proof.Spec
import proofs.«425976_j9320079032502_1_alg».proof.Proof.LibOneHotDot
import Idealize.ShloMosaic.Lib.Pipeline.Value
import Idealize.ShloMosaic.Lib.ValueLayout

set_option maxRecDepth 16384

noncomputable section

open scoped BigOperators

namespace Cert.KernelIdeal.KValX

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- The product record of the three products is the plain rows-by-columns one. -/
theorem dot_plain : (dot_S4000x128_S128x128_S4000x128_1_0_0_1_n_n : DotDims S4000x128 S128x128 S4000x128) = DotDims.plain 4000 128 128 := rfl

/-- A bias row laid under every row: entry (p, q) is the bias at q. -/
theorem bias_rows_apply (b : Vec Ideal S128 .f32) (p : Fin 4000) (q : Fin 128) :
    (broadcastTo S4000x128 (shapeCast S1x128 b shapeCasts_S128_S1x128) broadcasts_S1x128_S4000x128 : FVec Ideal S4000x128 .f32) (ix2 p q)
      = b (ix1 q) := by
  rw [broadcastTo_1b_ab_apply, shapeCast_a_1a_apply]

/-- The column of words laid along every column: entry (p, k) is the word of row p. -/
theorem word_cols_apply (v0 : Vec Ideal S4000x1 .i32) (p : Fin 4000) (k : Fin 128) :
    (broadcastTo S4000x128 (shapeCast S4000x1 v0 shapeCasts_S4000x1_S4000x1) broadcasts_S4000x1_S4000x128 : IVec S4000x128 32) (ix2 p k)
      = v0 (ix2 p (0 : Fin 1)) := by
  rw [shapeCast_self]
  refine broadcastTo_apply v0 _ (ix2 p k) (ix2 p (0 : Fin 1)) fun ax => ?_
  match ax with
  | ⟨0, _⟩ => rfl
  | ⟨1, _⟩ => rfl

/-- The column numbers: entry (p, k) is the word of k. -/
theorem col_numbers_apply (p : Fin 4000) (k : Fin 128) :
    (iota .tc S4000x128 32 [1] iota_S4000x128_d1_w32 : IVec S4000x128 32) (ix2 p k) = BitVec.ofNat 32 k.val :=
  iota_single_apply .tc S4000x128 32 (1 : Fin 2) iota_S4000x128_d1_w32 (ix2 p k)

/-- A product into a zero accumulator, at an entry: the sum over the contraction. -/
theorem product_apply (l : FVec Ideal S4000x128 .bf16) (r : FVec Ideal S128x128 .bf16) (p : Fin 4000) (q : Fin 128) :
    matmul dot_S4000x128_S128x128_S4000x128_1_0_0_1_n_n none l r (constant S4000x128 .f32 0x00000000#32) (ix2 p q)
      = ∑ k : Fin 128, l (ix2 p k) * r (ix2 k q) :=
  PlainDot.matmul_zero_plain_apply (M := 4000) (K := 128) (N := 128) none l r (ix2 p q)

/-- The product of the one-hot rows of the words with the table: row p is the table's row named by word p. -/
theorem row_select_apply (v0 : Vec Ideal S4000x1 .i32) (v8 : Vec Ideal S128x128 .f32) (p : Fin 4000) (k : Fin 128)
    (w : BitVec 32) (r : Fin 128) (hw0 : v0 (ix2 p (0 : Fin 1)) = w) (hw : w.toNat = r.val) :
    matmul dot_S4000x128_S128x128_S4000x128_1_0_0_1_n_n none
        (truncf .bf16 (sitofp .f32 (extui 32 (cmpi .eq
          (broadcastTo S4000x128 (shapeCast S4000x1 v0 shapeCasts_S4000x1_S4000x1) broadcasts_S4000x1_S4000x128)
          (iota .tc S4000x128 32 [1] iota_S4000x128_d1_w32)) natLt_1_32) : FVec Ideal S4000x128 .f32) bitsLt_bf16_f32)
        (truncf .bf16 (shapeCast S128x128 v8 shapeCasts_S128x128_S128x128) bitsLt_bf16_f32 : FVec Ideal S128x128 .bf16)
        (constant S4000x128 .f32 0x00000000#32) (ix2 p k)
      = v8 (ix2 r k) := by
  refine (Cert.LibOneHotDot.onehot_matmul_apply (M := 4000) (K := 128) (N := 128) (by norm_num) _ _ _ natLt_1_32 bitsLt_bf16_f32
    p k w r hw (fun k' => (word_cols_apply v0 p k').trans hw0) (fun k' => col_numbers_apply p k')).trans ?_
  rw [truncf_apply, shapeCast_self]

/-- The body's result at entry (p, q), when the word of block row p names row r of the table: the sum over k of
    (input (p, k) + positive part of (the sum over k' of table (r, k') times first weight (k', k), plus first bias k))
    times second weight (k, q), plus second bias q. -/
theorem payload_apply (v0 : Vec Ideal S4000x1 .i32) (v8 v12 : Vec Ideal S128x128 .f32) (v14 : Vec Ideal S128 .f32)
    (v22 : Vec Ideal S4000x128 .f32) (v24 : Vec Ideal S128x128 .f32) (v26 : Vec Ideal S128 .f32)
    (p : Fin 4000) (q : Fin 128) (w : BitVec 32) (r : Fin 128) (hw0 : v0 (ix2 p (0 : Fin 1)) = w) (hw : w.toNat = r.val) :
    k0_pay2 (F := Ideal) v0 v8 v12 v14 v22 v24 v26 (ix2 p q)
      = (∑ k : Fin 128, (v22 (ix2 p k) + max ((∑ k' : Fin 128, v8 (ix2 r k') * v12 (ix2 k' k)) + v14 (ix1 k)) 0) * v24 (ix2 k q))
        + v26 (ix1 q) := by
  unfold k0_pay2
  rw [addf_apply, bias_rows_apply, product_apply]
  congr 1
  refine Finset.sum_congr rfl fun k _ => ?_
  rw [truncf_apply, truncf_apply, addf_apply, maximumf_apply, addf_apply, bias_rows_apply, product_apply, broadcast_apply]
  have hz : (FloatOps.ofBits (F := Ideal) .f32 0x00000000#32) = (0 : EReal) := Ideal.ofBits_zero_f32
  rw [hz]
  have hsum : (∑ k_1 : Fin 128,
      (truncf .bf16 (matmul dot_S4000x128_S128x128_S4000x128_1_0_0_1_n_n none
          (truncf .bf16 (sitofp .f32 (extui 32 (cmpi .eq
            (broadcastTo S4000x128 (shapeCast S4000x1 v0 shapeCasts_S4000x1_S4000x1) broadcasts_S4000x1_S4000x128)
            (iota .tc S4000x128 32 [1] iota_S4000x128_d1_w32)) natLt_1_32) : FVec Ideal S4000x128 .f32) bitsLt_bf16_f32)
          (truncf .bf16 (shapeCast S128x128 v8 shapeCasts_S128x128_S128x128) bitsLt_bf16_f32 : FVec Ideal S128x128 .bf16)
          (constant S4000x128 .f32 0x00000000#32)) bitsLt_bf16_f32 : FVec Ideal S4000x128 .bf16) (ix2 p k_1)
        * (truncf .bf16 v12 bitsLt_bf16_f32 : FVec Ideal S128x128 .bf16) (ix2 k_1 k))
      = ∑ k' : Fin 128, v8 (ix2 r k') * v12 (ix2 k' k) :=
    Finset.sum_congr rfl fun k' _ => by
      rw [truncf_apply, truncf_apply, row_select_apply v0 v8 p k' w r hw0 hw]
  rw [hsum]

/-- The zero offsets of a whole-buffer access, as the constant-zero function. -/
theorem zero_offsets2 : (![0, 0] : Fin 2 → Nat) = fun _ => 0 := funext fun a => by fin_cases a <;> rfl
/-- The same on one axis. -/
theorem zero_offsets1 : (![0] : Fin 1 → Nat) = fun _ => 0 := funext fun a => by fin_cases a <;> rfl

/-- The block numbers of the windows the payload reads, at every grid point: the row-tiled windows are at block t, the
    whole-array windows at block 0. -/
theorem block_numbers : ∀ t : Fin cfg0.N,
    win0_0.index t (0 : Fin 2) = t.val ∧ win0_0.index t (1 : Fin 2) = 0
    ∧ win0_1.index t (0 : Fin 2) = t.val ∧ win0_1.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_10.index t (0 : Fin 2) = t.val ∧ win0_10.index t (1 : Fin 2) = 0 :=
  (by decide +kernel : ∀ t : Fin grid0.N, _)

/-- The input rows' block at point t, read at (p, k): the array at row 4000 t + p. -/
theorem x_block_apply (c : Dev nD) (t : Fin cfg0.N) (p : Fin 4000) (k : Fin 128) (hg : t.val * 4000 + p.val < 500000) :
    (iblk0 V c 0 t : S4000x128.Idx → EReal) (ix2 p k)
      = (V c main_arg0 : S500000x128.Idx → EReal) (ix2 (⟨t.val * 4000 + p.val, hg⟩ : Fin 500000) k) := by
  obtain ⟨a0, a1, -⟩ := block_numbers t
  show V c main_arg0 (((cfg0.win 0).blk t).view.emb (ix2 p k)) = V c main_arg0 (ix2 (⟨t.val * 4000 + p.val, hg⟩ : Fin 500000) k)
  refine congrArg (V c main_arg0) ?_
  funext a; apply Fin.ext
  match a with
  | ⟨0, _⟩ => show win0_0.index t (0 : Fin 2) * 4000 + 1 * p.val = t.val * 4000 + p.val; omega
  | ⟨1, _⟩ => show win0_0.index t (1 : Fin 2) * 128 + 1 * k.val = k.val; omega

/-- The words' block at point t, read at row p: the word of array row 4000 t + p. -/
theorem word_block_apply (c : Dev nD) (t : Fin cfg0.N) (p : Fin 4000) (hg : t.val * 4000 + p.val < 500000) :
    (iblk0 V c 1 t : S4000x1.Idx → BitVec 32) (ix2 p (0 : Fin 1))
      = (V c main_v0 : S500000x1.Idx → BitVec 32) (ix2 (⟨t.val * 4000 + p.val, hg⟩ : Fin 500000) (0 : Fin 1)) := by
  obtain ⟨-, -, a0, a1, -⟩ := block_numbers t
  show V c main_v0 (((cfg0.win 1).blk t).view.emb (ix2 p (0 : Fin 1))) = V c main_v0 (ix2 (⟨t.val * 4000 + p.val, hg⟩ : Fin 500000) (0 : Fin 1))
  refine congrArg (V c main_v0) ?_
  funext a; apply Fin.ext
  match a with
  | ⟨0, _⟩ => show win0_1.index t (0 : Fin 2) * 4000 + 1 * p.val = t.val * 4000 + p.val; omega
  | ⟨1, _⟩ => show win0_1.index t (1 : Fin 2) * 1 + 1 * 0 = 0; omega

/-- The table's window is the whole table at every point. -/
theorem table_block_apply (c : Dev nD) (t : Fin cfg0.N) (r k : Fin 128) :
    (iblk0 V c 3 t : S128x128.Idx → EReal) (ix2 r k) = (V c main_v1 : S128x128.Idx → EReal) (ix2 r k) := by
  obtain ⟨-, -, -, -, a0, a1, -⟩ := block_numbers t
  show V c main_v1 (((cfg0.win 3).blk t).view.emb (ix2 r k)) = V c main_v1 (ix2 r k)
  refine congrArg (V c main_v1) ?_
  funext a; apply Fin.ext
  match a with
  | ⟨0, _⟩ => show win0_3.index t (0 : Fin 2) * 128 + 1 * r.val = r.val; omega
  | ⟨1, _⟩ => show win0_3.index t (1 : Fin 2) * 128 + 1 * k.val = k.val; omega

/-- The first weight's window is the whole matrix at every point. -/
theorem w1_block_apply (c : Dev nD) (t : Fin cfg0.N) (r k : Fin 128) :
    (iblk0 V c 4 t : S128x128.Idx → EReal) (ix2 r k) = (V c main_arg7 : S128x128.Idx → EReal) (ix2 r k) := by
  obtain ⟨-, -, -, -, -, -, a0, a1, -⟩ := block_numbers t
  show V c main_arg7 (((cfg0.win 4).blk t).view.emb (ix2 r k)) = V c main_arg7 (ix2 r k)
  refine congrArg (V c main_arg7) ?_
  funext a; apply Fin.ext
  match a with
  | ⟨0, _⟩ => show win0_4.index t (0 : Fin 2) * 128 + 1 * r.val = r.val; omega
  | ⟨1, _⟩ => show win0_4.index t (1 : Fin 2) * 128 + 1 * k.val = k.val; omega

/-- The first bias's window is the whole vector at every point. -/
theorem b1_block_apply (c : Dev nD) (t : Fin cfg0.N) (k : Fin 128) :
    (iblk0 V c 5 t : S128.Idx → EReal) (ix1 k) = (V c main_arg8 : S128.Idx → EReal) (ix1 k) := by
  obtain ⟨-, -, -, -, -, -, -, -, a0, -⟩ := block_numbers t
  show V c main_arg8 (((cfg0.win 5).blk t).view.emb (ix1 k)) = V c main_arg8 (ix1 k)
  refine congrArg (V c main_arg8) ?_
  funext a; apply Fin.ext
  match a with
  | ⟨0, _⟩ => show win0_5.index t (0 : Fin 1) * 128 + 1 * k.val = k.val; omega

/-- The second weight's window is the whole matrix at every point. -/
theorem w2_block_apply (c : Dev nD) (t : Fin cfg0.N) (r k : Fin 128) :
    (iblk0 V c 6 t : S128x128.Idx → EReal) (ix2 r k) = (V c main_arg9 : S128x128.Idx → EReal) (ix2 r k) := by
  obtain ⟨-, -, -, -, -, -, -, -, -, a0, a1, -⟩ := block_numbers t
  show V c main_arg9 (((cfg0.win 6).blk t).view.emb (ix2 r k)) = V c main_arg9 (ix2 r k)
  refine congrArg (V c main_arg9) ?_
  funext a; apply Fin.ext
  match a with
  | ⟨0, _⟩ => show win0_6.index t (0 : Fin 2) * 128 + 1 * r.val = r.val; omega
  | ⟨1, _⟩ => show win0_6.index t (1 : Fin 2) * 128 + 1 * k.val = k.val; omega

/-- The second bias's window is the whole vector at every point. -/
theorem b2_block_apply (c : Dev nD) (t : Fin cfg0.N) (k : Fin 128) :
    (iblk0 V c 7 t : S128.Idx → EReal) (ix1 k) = (V c main_arg10 : S128.Idx → EReal) (ix1 k) := by
  obtain ⟨-, -, -, -, -, -, -, -, -, -, -, a0, -⟩ := block_numbers t
  show V c main_arg10 (((cfg0.win 7).blk t).view.emb (ix1 k)) = V c main_arg10 (ix1 k)
  refine congrArg (V c main_arg10) ?_
  funext a; apply Fin.ext
  match a with
  | ⟨0, _⟩ => show win0_7.index t (0 : Fin 1) * 128 + 1 * k.val = k.val; omega

/-- The output's block at point t sits at rows 4000 t + p of the array. -/
theorem out_block_row (t : Fin cfg0.N) (p : Fin 4000) (q : Fin 128) (hg : t.val * 4000 + p.val < 500000) :
    (((cfg0.win 10).blk t).view.emb (ix2 p q) : S500000x128.Idx) = ix2 (⟨t.val * 4000 + p.val, hg⟩ : Fin 500000) q := by
  obtain ⟨-, -, -, -, -, -, -, -, -, -, -, -, a0, a1⟩ := block_numbers t
  funext a; apply Fin.ext
  match a with
  | ⟨0, _⟩ => show win0_10.index t (0 : Fin 2) * 4000 + 1 * p.val = t.val * 4000 + p.val; omega
  | ⟨1, _⟩ => show win0_10.index t (1 : Fin 2) * 128 + 1 * q.val = q.val; omega

/-- The merged features at an entry whose word names a table row: the sum over k of (input + positive part of the
    affine map of that table row) times the second weight, plus the second bias. -/
theorem xout_apply {R H n : Nat} (x0 : FVec Ideal ⟨2, ![n, H]⟩ .f32) (td : IVec ⟨1, ![n]⟩ 32) (emb : FVec Ideal ⟨2, ![R, H]⟩ .f32)
    (w1 : FVec Ideal ⟨2, ![H, H]⟩ .f32) (b1 : FVec Ideal ⟨1, ![H]⟩ .f32) (w2 : FVec Ideal ⟨2, ![H, H]⟩ .f32)
    (b2 : FVec Ideal ⟨1, ![H]⟩ .f32) (g : Fin n) (q : Fin H) (h : (td (ix1 g)).toNat < R) :
    Cert.Spec.xout x0 td emb w1 b1 w2 b2 (ix2 g q)
      = (∑ k : Fin H, (x0 (ix2 g k)
            + max ((∑ k' : Fin H, emb (ix2 ⟨(td (ix1 g)).toNat, h⟩ k') * w1 (ix2 k' k)) + b1 (ix1 k)) 0) * w2 (ix2 k q))
        + b2 (ix1 q) := by
  show Cert.Spec.lin (fun j => x0 j + Cert.Spec.deg emb td w1 b1 j) w2 b2 (ix2 g q) = _
  rw [Cert.Spec.lin_apply]
  refine congrArg (· + b2 (ix1 q)) (Finset.sum_congr rfl fun k _ => ?_)
  show (x0 (ix2 g k) + max (Cert.Spec.lin (Cert.Spec.rows emb td) w1 b1 (ix2 g k)) 0) * w2 (ix2 k q) = _
  rw [Cert.Spec.lin_apply]
  have hrow : ∀ k' : Fin H, Cert.Spec.rows emb td (ix2 g k') = emb (ix2 ⟨(td (ix1 g)).toNat, h⟩ k') :=
    fun k' => Cert.Spec.rows_apply emb td g k' h
  simp only [hrow]

/-- What grid point t writes back is block t of the merged features of the arrays as the region finds them. -/
theorem flushed_xout (c : Dev nD) (td : IVec S500000 32) (emb : FVec Ideal S100x128 .f32)
    (h0 : ∀ r : Fin 500000, (V c main_v0 : S500000x1.Idx → BitVec 32) (ix2 r (0 : Fin 1)) = td (ix1 r))
    (h1 : ∀ (r : Fin 100) (q : Fin 128), (V c main_v1 : S128x128.Idx → EReal) (ix2 (⟨r.val, by omega⟩ : Fin 128) q) = emb (ix2 r q))
    (hr : ∀ r : Fin 500000, (td (ix1 r)).toNat < 100) (t : Fin cfg0.N) :
    (dat0 (F := Ideal) V c).flushed 10 t = ((cfg0.win 10).blk t).view.read (Elt Ideal)
      (Cert.Spec.xout (V c main_arg0) td emb (V c main_arg7) (V c main_arg8) (V c main_arg9) (V c main_arg10)) := by
  show (cfg0.win 10).cut (grid0.coords t) ((dat0 V c).after 10 t) = _
  rw [after0_10]
  unfold out0_10
  rw [View.canon_unit_zero zero_offsets2]
  simp only [View.ld_unit_zero (S := S4000x1) zero_offsets2, View.ld_unit_zero (S := S128x128) zero_offsets2,
    View.ld_unit_zero (S := S128) zero_offsets1, View.ld_unit_zero (S := S4000x128) zero_offsets2]
  funext j
  obtain ⟨p, q, rfl⟩ : ∃ (p : Fin 4000) (q : Fin 128), j = ix2 p q := ⟨j 0, j 1, eq_ix2 j⟩
  have ht : t.val < 125 := t.isLt
  have hg : t.val * 4000 + p.val < 500000 := by have := p.isLt; omega
  have hw100 : (td (ix1 (⟨t.val * 4000 + p.val, hg⟩ : Fin 500000))).toNat < 100 := hr _
  have hw128 : (td (ix1 (⟨t.val * 4000 + p.val, hg⟩ : Fin 500000))).toNat < 128 := by omega
  show k0_pay2 (F := Ideal) (iblk0 V c 1 t) (iblk0 V c 3 t) (iblk0 V c 4 t) (iblk0 V c 5 t) (iblk0 V c 0 t) (iblk0 V c 6 t)
      (iblk0 V c 7 t) (ix2 p q)
    = Cert.Spec.xout (V c main_arg0) td emb (V c main_arg7) (V c main_arg8) (V c main_arg9) (V c main_arg10)
        (((cfg0.win 10).blk t).view.emb (ix2 p q))
  refine (payload_apply (iblk0 V c 1 t) (iblk0 V c 3 t) (iblk0 V c 4 t) (iblk0 V c 5 t) (iblk0 V c 0 t) (iblk0 V c 6 t)
    (iblk0 V c 7 t) p q (td (ix1 (⟨t.val * 4000 + p.val, hg⟩ : Fin 500000))) ⟨_, hw128⟩
    ((word_block_apply V c t p hg).trans (h0 _)) rfl).trans ?_
  rw [out_block_row t p q hg, xout_apply _ _ _ _ _ _ _ _ q hw100]
  refine congrArg₂ (· + ·) (Finset.sum_congr rfl fun k _ => ?_) (b2_block_apply V c t q)
  refine congrArg₂ (· * ·) (congrArg₂ (· + ·) (x_block_apply V c t p k hg) (congrArg (max · 0)
    (congrArg₂ (· + ·) (Finset.sum_congr rfl fun k' _ => ?_) (b1_block_apply V c t k)))) (w2_block_apply V c t k q)
  exact congrArg₂ (· * ·) ((table_block_apply V c t _ k').trans (h1 ⟨_, hw100⟩ k')) (w1_block_apply V c t k' k)

/-- An index of the array is in point t's block exactly when each coordinate is in the block's range on its axis. -/
theorem mem_out_block (t : Fin cfg0.N) (i : S500000x128.Idx) :
    i ∈ ((cfg0.win 10).blk t).view.set ↔ ∀ a : Fin 2, win0_10.index t a * S4000x128.size a ≤ (i a).val
      ∧ (i a).val < win0_10.index t a * S4000x128.size a + S4000x128.size a := by
  show i ∈ ((View.whole main_v2_0).slice (win0_10.rect t)).set ↔ _
  rw [View.set_slice_whole, Rect.mem_set_unit]
  exact Iff.rfl

/-- Every index of the array lies in the block of the point that its row divided by 4000 names. -/
theorem out_blocks_cover (i : S500000x128.Idx) :
    ∃ t : Fin cfg0.N, (cfg0.win 10).flush t = true ∧ i ∈ ((cfg0.win 10).blk t).view.set := by
  have hi0 : (i 0).val < 500000 := (i 0).isLt
  have hi1 : (i 1).val < 128 := (i 1).isLt
  have htN : (i 0).val / 4000 < 125 := by omega
  obtain ⟨-, -, -, -, -, -, -, -, -, -, -, -, a0, a1⟩ := block_numbers (⟨(i 0).val / 4000, htN⟩ : Fin cfg0.N)
  refine ⟨⟨(i 0).val / 4000, htN⟩, flush0_10 _, ?_⟩
  rw [mem_out_block]
  intro a
  match a with
  | ⟨0, _⟩ =>
    show win0_10.index ⟨(i 0).val / 4000, htN⟩ (0 : Fin 2) * 4000 ≤ (i 0).val
      ∧ (i 0).val < win0_10.index ⟨(i 0).val / 4000, htN⟩ (0 : Fin 2) * 4000 + 4000
    have a0' : win0_10.index ⟨(i 0).val / 4000, htN⟩ (0 : Fin 2) = (i 0).val / 4000 := a0
    omega
  | ⟨1, _⟩ =>
    show win0_10.index ⟨(i 0).val / 4000, htN⟩ (1 : Fin 2) * 128 ≤ (i 1).val
      ∧ (i 1).val < win0_10.index ⟨(i 0).val / 4000, htN⟩ (1 : Fin 2) * 128 + 128
    omega

/-- The x_out array after region 0, for region-entry contents V whose index column holds the words td and whose
    padded table holds emb in its first 100 rows. -/
theorem final0_10 (c : Dev nD) (td : IVec S500000 32) (emb : FVec Ideal S100x128 .f32)
    (h0 : ∀ r : Fin 500000, (V c main_v0 : S500000x1.Idx → BitVec 32) (ix2 r (0 : Fin 1)) = td (ix1 r))
    (h1 : ∀ (r : Fin 100) (q : Fin 128), (V c main_v1 : S128x128.Idx → EReal) (ix2 (⟨r.val, by omega⟩ : Fin 128) q) = emb (ix2 r q))
    (hr : ∀ r : Fin 500000, (td (ix1 r)).toNat < 100) :
    (dat0 (F := Ideal) V c).arrAt 10 cfg0.N
      = Cert.Spec.xout (V c main_arg0) td emb (V c main_arg7) (V c main_arg8) (V c main_arg9) (V c main_arg10) :=
  (dat0 (F := Ideal) V c).arrAt_eq_of_cover 10 _ (fun t _ => flushed_xout V c td emb h0 h1 hr t) out_blocks_cover

end Cert.KernelIdeal.KValX

end
-- ==== Proof.KValLin.lean ====
/-
  The three plain output arrays of the kernel program: the tree positional encoding and the atom positional encoding
  are affine maps of their input rows (the guard against not-a-number entries selects the entry itself on the extended
  reals), and the last region adds its two input arrays entry by entry. Each block a grid point writes back is the
  same rows of one whole-array function, so each array ends holding that function.
-/
import proofs.«425976_j9320079032502_1_alg».proof.Proof.Gen.KernelIdeal.Frame
import proofs.«425976_j9320079032502_1_alg».proof.Proof.Spec
import proofs.«425976_j9320079032502_1_alg».proof.Proof.LibPlainDot
import Idealize.ShloMosaic.Lib.Pipeline.Value
import Idealize.ShloMosaic.Lib.ValueLayout

set_option maxRecDepth 16384

noncomputable section

open scoped BigOperators

namespace Cert.KernelIdeal.KValLin

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-! ## Shared facts -/

/-- The zero offsets of a rank-2 whole-buffer access, spelt as a constant function. -/
theorem zero_offsets2 : (![0, 0] : Fin 2 → Nat) = fun _ => 0 := funext fun a => by fin_cases a <;> rfl

/-- The zero offset of a rank-1 whole-buffer access, spelt as a constant function. -/
theorem zero_offsets1 : (![0] : Fin 1 → Nat) = fun _ => 0 := funext fun a => by fin_cases a; rfl

/-- On the extended reals no entry differs from itself, so the comparison "ordered and not equal" of an entry with
    itself is the bit 0. -/
theorem cmp_one_self (x : Ideal .f32) : FloatOps.cmpf .one x x = 0#1 := by
  rw [Ideal.cmpf_def]
  unfold Ideal.cmp
  simp

/-- The guard against not-a-number entries returns the entry itself. -/
theorem guard_entry (x z : Ideal .f32) : Scalar.select (FloatOps.cmpf .one x x) z x = x := by
  rw [cmp_one_self, select_zero]

/-- An affine map of rows read entry by entry: when the indices read are row r of the input at each k, the weights
    at (k, q), the bias at q and the output at (r, q), the sum of products plus the bias is the affine map's entry. -/
theorem lin_of_reads {M K N : Nat} (X : FVec Ideal ⟨2, ![M, K]⟩ .f32) (W : FVec Ideal ⟨2, ![K, N]⟩ .f32)
    (B : FVec Ideal ⟨1, ![N]⟩ .f32) (r : Fin M) (q : Fin N)
    (ix : Fin K → (⟨2, ![M, K]⟩ : Shape).Idx) (iw : Fin K → (⟨2, ![K, N]⟩ : Shape).Idx)
    (ib : (⟨1, ![N]⟩ : Shape).Idx) (io : (⟨2, ![M, N]⟩ : Shape).Idx)
    (hx : ∀ k, ix k = ix2 r k) (hw : ∀ k, iw k = ix2 k q) (hb : ib = ix1 q) (ho : io = ix2 r q) :
    (∑ k : Fin K, X (ix k) * W (iw k)) + B ib = Cert.Spec.lin X W B io := by
  subst hb ho
  rw [Cert.Spec.lin_apply]
  refine congrArg (· + B (ix1 q)) (Finset.sum_congr rfl fun k _ => ?_)
  rw [hx k, hw k]

/-! ## The tree positional encoding (region 0, second output) -/

/-- The contraction record of the 4000-row product is the plain one. -/
theorem dot4000_plain : dot_S4000x32_S32x64_S4000x64_1_0_0_1_n_n = DotDims.plain 4000 32 64 := rfl

/-- The tree-encoding body at an entry: row p of the guarded block times column q of the weights, plus the bias at q. -/
theorem tpe_payload (v33 : Vec Ideal S4000x32 .f32) (v37 : Vec Ideal S32x64 .f32) (v39 : Vec Ideal S64 .f32)
    (p : Fin 4000) (q : Fin 64) :
    k0_pay1 (k0_pay3 v33) v37 v39 (ix2 p q) = (∑ k : Fin 32, v33 (ix2 p k) * v37 (ix2 k q)) + v39 (ix1 q) := by
  unfold k0_pay1 k0_pay3
  refine (addf_apply _ _ (ix2 p q)).trans ?_
  refine congrArg₂ (· + ·) ?_ ?_
  · rw [dot4000_plain]
    refine (PlainDot.matmul_zero_plain_apply none _ _ (ix2 p q)).trans ?_
    refine Finset.sum_congr rfl fun k _ => ?_
    refine congrArg (· * v37 (ix2 k q)) ?_
    exact guard_entry (v33 (ix2 p k)) _
  · refine (broadcastTo_1b_ab_apply _ _ p q).trans ?_
    exact shapeCast_a_1a_apply v39 _ 0 q

/-- In region 0 the row windows' blocks at point t start at row block t, and the weights and the bias are whole. -/
theorem tpe_index : ∀ t : Fin cfg0.N,
    win0_2.index t (0 : Fin 2) = t.val ∧ win0_2.index t (1 : Fin 2) = 0
    ∧ win0_8.index t (0 : Fin 2) = 0 ∧ win0_8.index t (1 : Fin 2) = 0
    ∧ win0_9.index t (0 : Fin 1) = 0
    ∧ win0_11.index t (0 : Fin 2) = t.val ∧ win0_11.index t (1 : Fin 2) = 0 :=
  (by decide +kernel : ∀ t : Fin grid0.N, _)

/-- What point t writes back is rows 4000 t … 4000 t + 3999 of the affine map of the input rows. -/
theorem tpe_flushed (c : Dev nD) (t : Fin cfg0.N) :
    (dat0 (F := Ideal) V c).flushed 11 t
      = ((cfg0.win 11).blk t).view.read (Elt Ideal) (Cert.Spec.lin (V c main_arg1) (V c main_arg11) (V c main_arg12)) := by
  show (cfg0.win 11).cut (grid0.coords t) ((dat0 V c).after 11 t) = _
  rw [after0_11]
  unfold out0_11
  rw [View.canon_unit_zero zero_offsets2]
  simp only [View.ld_unit_zero (S := S4000x32) zero_offsets2, View.ld_unit_zero (S := S32x64) zero_offsets2,
    View.ld_unit_zero (S := S64) zero_offsets1]
  obtain ⟨e0, e1, e2, e3, e4, e5, e6⟩ := tpe_index t
  have hN : cfg0.N = 125 := N_0
  have ht : t.val < 125 := hN ▸ t.isLt
  funext j
  obtain ⟨p, q, rfl⟩ : ∃ (p : Fin 4000) (q : Fin 64), j = ix2 p q := ⟨j 0, j 1, eq_ix2 j⟩
  have hrow : t.val * 4000 + p.val < 500000 := by have := p.isLt; omega
  refine (tpe_payload _ _ _ p q).trans ?_
  have hout : ((cfg0.win 11).blk t).view.emb (ix2 p q) = ix2 (⟨t.val * 4000 + p.val, hrow⟩ : Fin 500000) q := by
    funext a; apply Fin.ext
    match a with
    | ⟨0, _⟩ => show win0_11.index t (0 : Fin 2) * 4000 + 1 * p.val = t.val * 4000 + p.val; omega
    | ⟨1, _⟩ => show win0_11.index t (1 : Fin 2) * 64 + 1 * q.val = q.val; omega
  have hx : ∀ k : Fin 32, ((cfg0.win 2).blk t).view.emb (ix2 p k) = ix2 (⟨t.val * 4000 + p.val, hrow⟩ : Fin 500000) k := by
    intro k; funext a; apply Fin.ext
    match a with
    | ⟨0, _⟩ => show win0_2.index t (0 : Fin 2) * 4000 + 1 * p.val = t.val * 4000 + p.val; omega
    | ⟨1, _⟩ => show win0_2.index t (1 : Fin 2) * 32 + 1 * k.val = k.val; omega
  have hw : ∀ k : Fin 32, ((cfg0.win 8).blk t).view.emb (ix2 k q) = ix2 k q := by
    intro k; funext a; apply Fin.ext
    match a with
    | ⟨0, _⟩ => show win0_8.index t (0 : Fin 2) * 32 + 1 * k.val = k.val; omega
    | ⟨1, _⟩ => show win0_8.index t (1 : Fin 2) * 64 + 1 * q.val = q.val; omega
  have hb : ((cfg0.win 9).blk t).view.emb (ix1 q) = ix1 q := by
    funext a; apply Fin.ext
    match a with
    | ⟨0, _⟩ => show win0_9.index t (0 : Fin 1) * 64 + 1 * q.val = q.val; omega
  exact lin_of_reads (V c main_arg1) (V c main_arg11) (V c main_arg12) ⟨t.val * 4000 + p.val, hrow⟩ q
    (fun k => ((cfg0.win 2).blk t).view.emb (ix2 p k)) (fun k => ((cfg0.win 8).blk t).view.emb (ix2 k q))
    (((cfg0.win 9).blk t).view.emb (ix1 q)) (((cfg0.win 11).blk t).view.emb (ix2 p q)) hx hw hb hout

/-- An index of the tree-encoding array is in point t's block iff each coordinate is in the block's range on its axis. -/
theorem tpe_mem_blk (t : Fin cfg0.N) (i : S500000x64.Idx) :
    i ∈ ((cfg0.win 11).blk t).view.set ↔ ∀ a : Fin 2, win0_11.index t a * S4000x64.size a ≤ (i a).val ∧ (i a).val < win0_11.index t a * S4000x64.size a + S4000x64.size a := by
  show i ∈ ((View.whole main_v2_1).slice (win0_11.rect t)).set ↔ _
  rw [View.set_slice_whole, Rect.mem_set_unit]
  exact Iff.rfl

/-- Every index of the tree-encoding array lies in the block of the point its row falls in. -/
theorem tpe_cover (i : S500000x64.Idx) :
    ∃ t : Fin cfg0.N, (cfg0.win 11).flush t = true ∧ i ∈ ((cfg0.win 11).blk t).view.set := by
  have hi0 : (i 0).val < 500000 := (i 0).isLt
  have hi1 : (i 1).val < 64 := (i 1).isLt
  have hN : cfg0.N = 125 := N_0
  let t : Fin cfg0.N := ⟨(i 0).val / 4000, by rw [hN]; omega⟩
  obtain ⟨-, -, -, -, -, e5, e6⟩ := tpe_index t
  have ht : t.val = (i 0).val / 4000 := rfl
  refine ⟨t, flush0_11 t, ?_⟩
  rw [tpe_mem_blk]
  intro a
  match a with
  | ⟨0, _⟩ => show win0_11.index t (0 : Fin 2) * 4000 ≤ (i 0).val ∧ (i 0).val < win0_11.index t (0 : Fin 2) * 4000 + 4000; omega
  | ⟨1, _⟩ => show win0_11.index t (1 : Fin 2) * 64 ≤ (i 1).val ∧ (i 1).val < win0_11.index t (1 : Fin 2) * 64 + 64; omega

/-- The tpe_out array after region 0. -/
theorem final0_11 (c : Dev nD) :
    (dat0 (F := Ideal) V c).arrAt 11 cfg0.N = Cert.Spec.lin (V c main_arg1) (V c main_arg11) (V c main_arg12) :=
  (dat0 (F := Ideal) V c).arrAt_eq_of_cover 11 _ (fun t _ => tpe_flushed V c t) tpe_cover

/-! ## The atom positional encoding (region 1) -/

/-- The contraction record of the 8000-row product is the plain one. -/
theorem dot8000_plain : dot_S8000x32_S32x64_S8000x64_1_0_0_1_n_n = DotDims.plain 8000 32 64 := rfl

/-- The atom-encoding body at an entry: row p of the block times column q of the weights, plus the bias at q. -/
theorem lpe_payload (v0 : Vec Ideal S8000x32 .f32) (v4 : Vec Ideal S32x64 .f32) (v6 : Vec Ideal S64 .f32) (p : Fin 8000) (q : Fin 64) :
    k1_pay1 v0 v4 v6 (ix2 p q) = (∑ k : Fin 32, v0 (ix2 p k) * v4 (ix2 k q)) + v6 (ix1 q) := by
  unfold k1_pay1
  refine (addf_apply _ _ (ix2 p q)).trans ?_
  refine congrArg₂ (· + ·) ?_ ?_
  · rw [dot8000_plain]
    refine (PlainDot.matmul_zero_plain_apply none _ _ (ix2 p q)).trans ?_
    refine Finset.sum_congr rfl fun k _ => ?_
    refine congrArg (· * v4 (ix2 k q)) ?_
    exact guard_entry (v0 (ix2 p k)) _
  · refine (broadcastTo_1b_ab_apply _ _ p q).trans ?_
    exact shapeCast_a_1a_apply v6 _ 0 q

/-- In region 1 the row windows' blocks at point t start at row block t, and the weights and the bias are whole. -/
theorem lpe_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- What point t writes back is rows 8000 t … 8000 t + 7999 of the affine map of the input rows. -/
theorem lpe_flushed (c : Dev nD) (t : Fin cfg1.N) :
    (dat1 (F := Ideal) V c).flushed 3 t
      = ((cfg1.win 3).blk t).view.read (Elt Ideal) (Cert.Spec.lin (V c main_arg2) (V c main_arg13) (V c main_arg14)) := by
  show (cfg1.win 3).cut (grid1.coords t) ((dat1 V c).after 3 t) = _
  rw [after1_3]
  unfold out1_3
  rw [View.canon_unit_zero zero_offsets2]
  simp only [View.ld_unit_zero (S := S8000x32) zero_offsets2, View.ld_unit_zero (S := S32x64) zero_offsets2,
    View.ld_unit_zero (S := S64) zero_offsets1]
  obtain ⟨e0, e1, e2, e3, e4, e5, e6⟩ := lpe_index t
  have hN : cfg1.N = 125 := N_1
  have ht : t.val < 125 := hN ▸ t.isLt
  funext j
  obtain ⟨p, q, rfl⟩ : ∃ (p : Fin 8000) (q : Fin 64), j = ix2 p q := ⟨j 0, j 1, eq_ix2 j⟩
  have hrow : t.val * 8000 + p.val < 1000000 := by have := p.isLt; omega
  refine (lpe_payload _ _ _ p q).trans ?_
  have hout : ((cfg1.win 3).blk t).view.emb (ix2 p q) = ix2 (⟨t.val * 8000 + p.val, hrow⟩ : Fin 1000000) q := by
    funext a; apply Fin.ext
    match a with
    | ⟨0, _⟩ => show win1_3.index t (0 : Fin 2) * 8000 + 1 * p.val = t.val * 8000 + p.val; omega
    | ⟨1, _⟩ => show win1_3.index t (1 : Fin 2) * 64 + 1 * q.val = q.val; omega
  have hx : ∀ k : Fin 32, ((cfg1.win 0).blk t).view.emb (ix2 p k) = ix2 (⟨t.val * 8000 + p.val, hrow⟩ : Fin 1000000) k := by
    intro k; funext a; apply Fin.ext
    match a with
    | ⟨0, _⟩ => show win1_0.index t (0 : Fin 2) * 8000 + 1 * p.val = t.val * 8000 + p.val; omega
    | ⟨1, _⟩ => show win1_0.index t (1 : Fin 2) * 32 + 1 * k.val = k.val; omega
  have hw : ∀ k : Fin 32, ((cfg1.win 1).blk t).view.emb (ix2 k q) = ix2 k q := by
    intro k; funext a; apply Fin.ext
    match a with
    | ⟨0, _⟩ => show win1_1.index t (0 : Fin 2) * 32 + 1 * k.val = k.val; omega
    | ⟨1, _⟩ => show win1_1.index t (1 : Fin 2) * 64 + 1 * q.val = q.val; omega
  have hb : ((cfg1.win 2).blk t).view.emb (ix1 q) = ix1 q := by
    funext a; apply Fin.ext
    match a with
    | ⟨0, _⟩ => show win1_2.index t (0 : Fin 1) * 64 + 1 * q.val = q.val; omega
  exact lin_of_reads (V c main_arg2) (V c main_arg13) (V c main_arg14) ⟨t.val * 8000 + p.val, hrow⟩ q
    (fun k => ((cfg1.win 0).blk t).view.emb (ix2 p k)) (fun k => ((cfg1.win 1).blk t).view.emb (ix2 k q))
    (((cfg1.win 2).blk t).view.emb (ix1 q)) (((cfg1.win 3).blk t).view.emb (ix2 p q)) hx hw hb hout

/-- An index of the encoding array is in point t's block iff each coordinate is in the block's range on its axis. -/
theorem lpe_mem_blk (t : Fin cfg1.N) (i : S1000000x64.Idx) :
    i ∈ ((cfg1.win 3).blk t).view.set ↔ ∀ a : Fin 2, win1_3.index t a * S8000x64.size a ≤ (i a).val ∧ (i a).val < win1_3.index t a * S8000x64.size a + S8000x64.size a := by
  show i ∈ ((View.whole main_v3).slice (win1_3.rect t)).set ↔ _
  rw [View.set_slice_whole, Rect.mem_set_unit]
  exact Iff.rfl

/-- Every index of the encoding array lies in the block of the point its row falls in. -/
theorem lpe_cover (i : S1000000x64.Idx) :
    ∃ t : Fin cfg1.N, (cfg1.win 3).flush t = true ∧ i ∈ ((cfg1.win 3).blk t).view.set := by
  have hi0 : (i 0).val < 1000000 := (i 0).isLt
  have hi1 : (i 1).val < 64 := (i 1).isLt
  have hN : cfg1.N = 125 := N_1
  let t : Fin cfg1.N := ⟨(i 0).val / 8000, by rw [hN]; omega⟩
  obtain ⟨-, -, -, -, -, e5, e6⟩ := lpe_index t
  have ht : t.val = (i 0).val / 8000 := rfl
  refine ⟨t, flush1_3 t, ?_⟩
  rw [lpe_mem_blk]
  intro a
  match a with
  | ⟨0, _⟩ => show win1_3.index t (0 : Fin 2) * 8000 ≤ (i 0).val ∧ (i 0).val < win1_3.index t (0 : Fin 2) * 8000 + 8000; omega
  | ⟨1, _⟩ => show win1_3.index t (1 : Fin 2) * 64 ≤ (i 1).val ∧ (i 1).val < win1_3.index t (1 : Fin 2) * 64 + 64; omega

/-- The pe array after region 1. -/
theorem final1_3 (c : Dev nD) :
    (dat1 (F := Ideal) V c).arrAt 3 cfg1.N = Cert.Spec.lin (V c main_arg2) (V c main_arg13) (V c main_arg14) :=
  (dat1 (F := Ideal) V c).arrAt_eq_of_cover 3 _ (fun t _ => lpe_flushed V c t) lpe_cover

/-! ## The sum of two arrays (region 2) -/

/-- The combining body adds its two blocks entry by entry. -/
theorem combine_payload (v0 v2 : Vec Ideal S5000x128 .f32) : k2_pay1 v0 v2 = addf (F := Ideal) (s := S5000x128) (φ := .f32) v0 v2 := by
  unfold k2_pay1
  rw [shapeCast_self, shapeCast_self]

/-- In region 2 each window's block at point t starts at row block t, column block 0. -/
theorem combine_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point t writes back is rows 5000 t … 5000 t + 4999 of the entrywise sum of the two arrays. -/
theorem combine_flushed (c : Dev nD) (t : Fin cfg2.N) :
    (dat2 (F := Ideal) V c).flushed 2 t
      = ((cfg2.win 2).blk t).view.read (Elt Ideal) (addf (F := Ideal) (s := S500000x128) (φ := .f32) (V c main_v2_0) (V c main_v23)) := by
  show (cfg2.win 2).cut (grid2.coords t) ((dat2 V c).after 2 t) = _
  rw [after2_2]
  unfold out2_2
  rw [View.canon_unit_zero zero_offsets2]
  simp only [View.ld_unit_zero (S := S5000x128) zero_offsets2]
  rw [combine_payload]
  obtain ⟨e0, e1, e2, e3, e4, e5⟩ := combine_index t
  funext j
  show FloatOps.addf (F := Ideal) (φ := .f32) (V c main_v2_0 (((cfg2.win 0).blk t).view.emb j)) (V c main_v23 (((cfg2.win 1).blk t).view.emb j))
    = FloatOps.addf (F := Ideal) (φ := .f32) (V c main_v2_0 (((cfg2.win 2).blk t).view.emb j)) (V c main_v23 (((cfg2.win 2).blk t).view.emb j))
  have h0 : ((cfg2.win 0).blk t).view.emb j = ((cfg2.win 2).blk t).view.emb j := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * (j 1).val = win2_2.index t (1 : Fin 2) * 128 + 1 * (j 1).val; omega
  have h1 : ((cfg2.win 1).blk t).view.emb j = ((cfg2.win 2).blk t).view.emb j := by
    funext a; apply Fin.ext
    match a with
    | ⟨0, _⟩ => show win2_1.index t (0 : Fin 2) * 5000 + 1 * (j 0).val = win2_2.index t (0 : Fin 2) * 5000 + 1 * (j 0).val; omega
    | ⟨1, _⟩ => show win2_1.index t (1 : Fin 2) * 128 + 1 * (j 1).val = win2_2.index t (1 : Fin 2) * 128 + 1 * (j 1).val; omega
  rw [h0, h1]

/-- An index of the result array is in point t's block iff each coordinate is in the block's range on its axis. -/
theorem combine_mem_blk (t : Fin cfg2.N) (i : S500000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v24).slice (win2_2.rect t)).set ↔ _
  rw [View.set_slice_whole, Rect.mem_set_unit]
  exact Iff.rfl

/-- Every index of the result array lies in the block of the point its row falls in. -/
theorem combine_cover (i : S500000x128.Idx) :
    ∃ t : Fin cfg2.N, (cfg2.win 2).flush t = true ∧ i ∈ ((cfg2.win 2).blk t).view.set := by
  have hi0 : (i 0).val < 500000 := (i 0).isLt
  have hi1 : (i 1).val < 128 := (i 1).isLt
  have hN : cfg2.N = 100 := N_2
  let t : Fin cfg2.N := ⟨(i 0).val / 5000, by rw [hN]; omega⟩
  obtain ⟨-, -, -, -, e4, e5⟩ := combine_index t
  have ht : t.val = (i 0).val / 5000 := rfl
  refine ⟨t, flush2_2 t, ?_⟩
  rw [combine_mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The result array after region 2. -/
theorem final2_2 (c : Dev nD) :
    (dat2 (F := Ideal) V c).arrAt 2 cfg2.N
      = addf (F := Ideal) (s := S500000x128) (φ := .f32) (V c main_v2_0) (V c main_v23) :=
  (dat2 (F := Ideal) V c).arrAt_eq_of_cover 2 _ (fun t _ => combine_flushed V c t) combine_cover

end Cert.KernelIdeal.KValLin

end
-- ==== Proof.KValue.lean ====
/-
  The kernel program's result array as ONE function of its argument arrays: the third region adds, entry by entry, the
  merged clique features the first region left and the host stretch's `tail` of the atom encodings the second region
  left and the tree encodings the first region left; each of those arrays is the specification's function of the
  arguments.
-/
import proofs.«425976_j9320079032502_1_alg».proof.Proof.KBound
import proofs.«425976_j9320079032502_1_alg».proof.Proof.KValX
import proofs.«425976_j9320079032502_1_alg».proof.Proof.KValLin

set_option maxRecDepth 16384

noncomputable section

namespace Cert.KernelIdeal.KValue

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-- The merged clique features after the first region, of the arguments. -/
theorem xout_eq (c : Dev nD)
    (hr : ∀ r : Fin 500000, ((m ((c : Thread nD τ).loc main_arg3) : S500000.Idx → BitVec 32) (ix1 r)).toNat < 100) :
    (dat0 (F := Ideal) (V2 m ρ) c).arrAt 10 cfg0.N
      = Cert.Spec.xout (m ((c : Thread nD τ).loc main_arg0)) (m ((c : Thread nD τ).loc main_arg3)) (m ((c : Thread nD τ).loc main_arg6))
          (m ((c : Thread nD τ).loc main_arg7)) (m ((c : Thread nD τ).loc main_arg8)) (m ((c : Thread nD τ).loc main_arg9))
          (m ((c : Thread nD τ).loc main_arg10)) := by
  rw [KValX.final0_10 (V2 m ρ) c (m ((c : Thread nD τ).loc main_arg3)) (m ((c : Thread nD τ).loc main_arg6))
    (KBound.V2_v0_apply m ρ c) (KBound.V2_v1_apply m ρ c) hr,
    KBound.V2_arg0, KBound.V2_arg7, KBound.V2_arg8, KBound.V2_arg9, KBound.V2_arg10]

/-- The tree encodings after the first region, of the arguments. -/
theorem tpe_eq (c : Dev nD) :
    (dat0 (F := Ideal) (V2 m ρ) c).arrAt 11 cfg0.N
      = Cert.Spec.lin (m ((c : Thread nD τ).loc main_arg1)) (m ((c : Thread nD τ).loc main_arg11)) (m ((c : Thread nD τ).loc main_arg12)) := by
  rw [KValLin.final0_11 (V2 m ρ) c, KBound.V2_arg1, KBound.V2_arg11, KBound.V2_arg12]

/-- The atom encodings after the second region, of the arguments. -/
theorem pe_eq (c : Dev nD) :
    (dat1 (F := Ideal) (V3 m ρ) c).arrAt 3 cfg1.N
      = Cert.Spec.lin (m ((c : Thread nD τ).loc main_arg2)) (m ((c : Thread nD τ).loc main_arg13)) (m ((c : Thread nD τ).loc main_arg14)) := by
  rw [KValLin.final1_3 (V3 m ρ) c, KBound.V3_arg2, KBound.V3_arg13, KBound.V3_arg14]

/-- The result array after the third region, of the arguments. -/
theorem result_eq (c : Dev nD)
    (hr : ∀ r : Fin 500000, ((m ((c : Thread nD τ).loc main_arg3) : S500000.Idx → BitVec 32) (ix1 r)).toNat < 100) :
    W6 (F := Ideal) m ρ c (Proc.devRef .tc main_v24)
      = addf (F := Ideal) (s := S500000x128) (φ := .f32)
          (Cert.Spec.xout (m ((c : Thread nD τ).loc main_arg0)) (m ((c : Thread nD τ).loc main_arg3)) (m ((c : Thread nD τ).loc main_arg6))
            (m ((c : Thread nD τ).loc main_arg7)) (m ((c : Thread nD τ).loc main_arg8)) (m ((c : Thread nD τ).loc main_arg9))
            (m ((c : Thread nD τ).loc main_arg10)))
          (KBound.tail
            (Cert.Spec.lin (m ((c : Thread nD τ).loc main_arg2)) (m ((c : Thread nD τ).loc main_arg13)) (m ((c : Thread nD τ).loc main_arg14)))
            (Cert.Spec.lin (m ((c : Thread nD τ).loc main_arg1)) (m ((c : Thread nD τ).loc main_arg11)) (m ((c : Thread nD τ).loc main_arg12)))
            (m ((c : Thread nD τ).loc main_arg4)) (m ((c : Thread nD τ).loc main_arg5))) := by
  rw [KBound.W6_v24, KValLin.final2_2 (V5 m ρ) c, KBound.V5_v2_0, KBound.W4_v2_0, KBound.V5_v23, KBound.W4_v3, KBound.W4_v2_1,
    KBound.W4_arg4, KBound.W4_arg5, xout_eq m ρ c hr, tpe_eq, pe_eq]

end Cert.KernelIdeal.KValue

end
-- ==== Proof.LibRowGather.lean ====
/-
  Taking rows of a table: the gather that x[idx] of an [N × C] array lowers to, read at an entry.

  With the row axis collapsed and start-indexed and the column axis an offset axis of full width, entry (r, q) of
  the result is the table's entry (row, q), where row is start index r read as a signed integer and clamped to
  [0, N − 1].  A start index that already names a row is left as it is.
-/
import Idealize.ShloMosaic.Lib.ValueIdx

noncomputable section

namespace Cert.LibRowGather

open Idealize.ShloMosaic Idealize.ShloMosaic.ValueIdx

/-- Entry (r, q) of a row gather is the table's entry (row, q) for a start index that names the row. -/
theorem gather_rows_apply {α : Type} {N C n : Nat}
    (d : GatherDims ⟨2, ![N, C]⟩ ⟨2, ![n, 1]⟩ ⟨2, ![n, C]⟩)
    (hoff : d.offsetDims = [1]) (hcol : d.collapsedSliceDims = [0]) (hob : d.operandBatchingDims = [])
    (hsb : d.startIndicesBatchingDims = []) (hmap : d.startIndexMap = [0]) (hiv : d.indexVectorDim = 1)
    (hsl : d.sliceSizes = ![1, C])
    (x : (⟨2, ![N, C]⟩ : Shape).Idx → α) (idx : IVec ⟨2, ![n, 1]⟩ 32) (r : Fin n) (q : Fin C) (row : Fin N)
    (hrow : (idx (ix2 r (0 : Fin 1))).toInt = (row.val : Int)) :
    Host.gather d x idx (ix2 r q) = x (ix2 row q) := by
  -- the record's data are the seven printed lists: make them literal so that the axis bookkeeping computes
  obtain ⟨od, cd, obd, sbd, sim, ivd, ss, wf⟩ := d
  dsimp only at hoff hcol hob hsb hmap hiv hsl
  subst hoff hcol hob hsb hmap hiv hsl
  unfold Host.gather
  refine congrArg x (funext fun a => ?_)
  match a with
  | ⟨0, _⟩ =>
    -- the row axis: collapsed and start-indexed, so the operand's row is the clamped start index alone
    apply Fin.ext
    simp only [GatherDims.operandIdx]
    rw [GatherDims.batchCoord_eq_zero _ _ _ (by exact List.not_mem_nil),
      GatherDims.offCoord_eq_zero _ _ _ (by rw [GatherDims.mem_sKept]; simp)]
    unfold GatherDims.start
    rw [dif_pos (by simp)]
    -- the start index is read at (r, 0): r from the result's batch axis, 0 on the index vector's axis
    generalize hX : GatherDims.siIdx _ (ix2 r q) _ = X
    have hX' : X = ix2 r (0 : Fin 1) := by
      rw [← hX]
      funext b
      match b with
      | ⟨0, _⟩ => rfl
      | ⟨1, _⟩ => rfl
    rw [hX', hrow]
    show min ((row.val : Int)).toNat (N - 1) = row.val
    have hlt := row.isLt
    rw [Int.toNat_natCast]
    omega
  | ⟨1, _⟩ =>
    -- the column axis: an offset axis of full width, no start, so the operand's column is the result's
    apply Fin.ext
    simp only [GatherDims.operandIdx]
    rw [GatherDims.batchCoord_eq_zero _ _ _ (by exact List.not_mem_nil)]
    unfold GatherDims.start
    rw [dif_neg (by simp)]
    unfold GatherDims.offCoord
    rw [dif_pos (by rw [GatherDims.mem_sKept]; simp)]
    simp only [Nat.zero_add]
    rfl

end Cert.LibRowGather

end
-- ==== Proof.RefVal.lean ====
/-
  The reference's three dense stages are the specification's functions: the merged clique features (the gather of
  table rows by in-range indices is the row itself), and the two positional encodings (the guard against
  not-a-number entries selects the entry itself on the extended reals). And the precondition read at one index:
  every word of the degree vector is below 100.
-/
import proofs.«425976_j9320079032502_1_alg».proof.Defs
import proofs.«425976_j9320079032502_1_alg».proof.Proof.Gen.ReferenceIdeal.Read
import proofs.«425976_j9320079032502_1_alg».proof.Proof.Gen.Pre_finite_inputs
import proofs.«425976_j9320079032502_1_alg».proof.Proof.Spec
import proofs.«425976_j9320079032502_1_alg».proof.Proof.LibPlainDot
import proofs.«425976_j9320079032502_1_alg».proof.Proof.LibRowGather
import Idealize.ShloMosaic.Lib.ReduceAll
import Idealize.ShloMosaic.Lib.StableHlo.Predicate

set_option maxRecDepth 16384

noncomputable section

namespace Cert.RefVal

open Cert.ReferenceIdeal Cert.ReferenceIdeal.Read Idealize.ShloMosaic Idealize.ShloMosaic.TcCoe Idealize.ShloMosaic.ValueIdx Idealize.SL.Sem

/-- On the extended reals every entry equals itself, so the test "x differs from x" is false. -/
theorem une_self {φ : FTy} (x : Ideal φ) : FloatOps.cmpf .une x x = 0#1 := by
  rw [Ideal.cmpf_def]
  show BitVec.ofBool (decide (x ≠ x)) = 0#1
  rw [decide_eq_false (fun h => h rfl)]
  rfl

/-- The start index of the row gather at row p: the degree word is below 100, so it is non-negative read signed, the
    wrap-around of negative indices leaves it as it is, and its signed reading is its unsigned one. -/
theorem start_toInt (x3 : IVec S500000 32) (p : Fin 500000) (hp : (x3 (ix1 p)).toNat < 100) :
    (val_main_v5 (F := Ideal) x3 (ix2 p (0 : Fin 1))).toInt = ((x3 (ix1 p)).toNat : Int) := by
  rw [val_main_v5_apply, val_main_v4_apply, val_main_v1_apply, val_main_v0_apply, val_main_c_apply]
  have hi : idx_main_v5 (ix2 p (0 : Fin 1)) = ix1 p :=
    funext fun a => Fin.ext (by match a with | ⟨0, _⟩ => rfl)
  rw [hi]
  have hc : IntOp.cmpi .slt (x3 (ix1 p)) 0#32 = 0#1 := by
    apply eq_zero_of_ne_one
    rw [IntOp.cmpi_slt, BitVec.toInt_eq_toNat_of_lt (by omega), show (0#32 : BitVec 32).toInt = 0 from by decide]
    omega
  rw [hc, select_zero]
  exact BitVec.toInt_eq_toNat_of_lt (by omega)

/-- The gathered table rows at an entry: row p of the gather is the table's row named by word p. -/
theorem v6_apply (x3 : IVec S500000 32) (x6 : FVec Ideal S100x128 .f32)
    (hr : ∀ r : Fin 500000, (x3 (ix1 r)).toNat < 100) (p : Fin 500000) (k : Fin 128) :
    val_main_v6 (F := Ideal) x3 x6 (ix2 p k) = x6 (ix2 ⟨(x3 (ix1 p)).toNat, hr p⟩ k) := by
  unfold val_main_v6
  exact Cert.LibRowGather.gather_rows_apply _ rfl rfl rfl rfl rfl rfl rfl x6 (val_main_v5 (F := Ideal) x3) p k
    ⟨(x3 (ix1 p)).toNat, hr p⟩ (start_toInt x3 p (hr p))

/-- The positive part of the affine map of the gathered rows, at an entry. -/
theorem v11_apply (x3 : IVec S500000 32) (x6 : FVec Ideal S100x128 .f32) (x7 : FVec Ideal S128x128 .f32)
    (x8 : FVec Ideal S128 .f32) (hr : ∀ r : Fin 500000, (x3 (ix1 r)).toNat < 100) (p : Fin 500000) (k : Fin 128) :
    val_main_v11 (F := Ideal) x3 x6 x7 x8 (ix2 p k) = Cert.Spec.deg x6 x3 x7 x8 (ix2 p k) := by
  rw [val_main_v11_apply, val_main_v10_apply, val_main_v7_apply, val_main_v9_apply, val_main_v8_apply,
    val_main_call0_v0_apply, val_main_call0_cst_apply]
  have hb : idx_main_v8 (idx_main_v9 (ix2 p k)) = ix1 k :=
    funext fun a => Fin.ext (by match a with | ⟨0, _⟩ => rfl)
  have hl : ∀ j, lidx_main_v7 (ix2 p k) j = ix2 p j := fun j =>
    funext fun a => Fin.ext (by match a with | ⟨0, _⟩ => rfl | ⟨1, _⟩ => rfl)
  have hrr : ∀ j, ridx_main_v7 (ix2 p k) j = ix2 j k := fun j =>
    funext fun a => Fin.ext (by match a with | ⟨0, _⟩ => rfl | ⟨1, _⟩ => rfl)
  rw [hb]
  show max ((∑ j, _) + _) (Ideal.ofBits .f32 0x00000000#32) = max (Cert.Spec.lin (Cert.Spec.rows x6 x3) x7 x8 (ix2 p k)) 0
  rw [Ideal.ofBits_zero_f32, Cert.Spec.lin_apply]
  congr 2
  refine Finset.sum_congr rfl fun j _ => ?_
  rw [hl, hrr, v6_apply x3 x6 hr, Cert.Spec.rows_apply x6 x3 p j (hr p)]

/-- A word that is at least 0 and below 100, read signed, is below 100 read unsigned. -/
theorem word_lt (w : BitVec 32) (h0 : IntOp.cmpi .sge w 0#32 = 1#1) (h1 : IntOp.cmpi .slt w 100#32 = 1#1) :
    w.toNat < 100 := by
  rw [IntOp.cmpi_sge] at h0
  rw [IntOp.cmpi_slt] at h1
  have e0 : (0#32 : BitVec 32).toInt = 0 := by decide
  have e1 : (100#32 : BitVec 32).toInt = 100 := by decide
  rw [e0] at h0
  rw [e1] at h1
  have h32 := w.isLt
  unfold BitVec.toInt at h0 h1
  by_cases hc : 2 * w.toNat < 2 ^ 32
  · rw [if_pos hc] at h0 h1; omega
  · rw [if_neg hc] at h0 h1; omega

/-- The rank-0 shape has one index. -/
instance : Subsingleton Cert.Pre_finite_inputs.S_.Idx := ⟨fun a b => funext fun d => d.elim0⟩

theorem ref_x (x0 : FVec Ideal S500000x128 .f32) (x3 : IVec S500000 32) (x6 : FVec Ideal S100x128 .f32)
    (x7 : FVec Ideal S128x128 .f32) (x8 : FVec Ideal S128 .f32) (x9 : FVec Ideal S128x128 .f32) (x10 : FVec Ideal S128 .f32)
    (hr : ∀ r : Fin 500000, (x3 (ix1 r)).toNat < 100) :
    val_main_v16 (F := Ideal) x0 x3 x6 x7 x8 x9 x10 = Cert.Spec.xout x0 x3 x6 x7 x8 x9 x10 := by
  funext i
  obtain ⟨p, q, rfl⟩ : ∃ p q, i = ix2 p q := ⟨i 0, i 1, eq_ix2 i⟩
  rw [val_main_v16_apply, val_main_v13_apply, val_main_v15_apply, val_main_v14_apply]
  have hb : idx_main_v14 (idx_main_v15 (ix2 p q)) = ix1 q :=
    funext fun a => Fin.ext (by match a with | ⟨0, _⟩ => rfl)
  have hl : ∀ k, lidx_main_v13 (ix2 p q) k = ix2 p k := fun k =>
    funext fun a => Fin.ext (by match a with | ⟨0, _⟩ => rfl | ⟨1, _⟩ => rfl)
  have hrr : ∀ k, ridx_main_v13 (ix2 p q) k = ix2 k q := fun k =>
    funext fun a => Fin.ext (by match a with | ⟨0, _⟩ => rfl | ⟨1, _⟩ => rfl)
  rw [hb]
  show (∑ k, _) + _ = Cert.Spec.lin (fun j => x0 j + Cert.Spec.deg x6 x3 x7 x8 j) x9 x10 (ix2 p q)
  rw [Cert.Spec.lin_apply]
  congr 1
  refine Finset.sum_congr rfl fun k _ => ?_
  rw [hl, hrr, val_main_v12_apply, v11_apply x3 x6 x7 x8 hr]
  rfl

theorem ref_tpe (x1 : FVec Ideal S500000x32 .f32) (x11 : FVec Ideal S32x64 .f32) (x12 : FVec Ideal S64 .f32) :
    val_main_v24 (F := Ideal) x1 x11 x12 = Cert.Spec.lin x1 x11 x12 := by
  funext i
  obtain ⟨p, q, rfl⟩ : ∃ p q, i = ix2 p q := ⟨i 0, i 1, eq_ix2 i⟩
  rw [val_main_v24_apply, val_main_v21_apply, val_main_v23_apply, val_main_v22_apply, Cert.Spec.lin_apply]
  have hb : idx_main_v22 (idx_main_v23 (ix2 p q)) = ix1 q :=
    funext fun a => Fin.ext (by match a with | ⟨0, _⟩ => rfl)
  have hl : ∀ k, lidx_main_v21 (ix2 p q) k = ix2 p k := fun k =>
    funext fun a => Fin.ext (by match a with | ⟨0, _⟩ => rfl | ⟨1, _⟩ => rfl)
  have hr : ∀ k, ridx_main_v21 (ix2 p q) k = ix2 k q := fun k =>
    funext fun a => Fin.ext (by match a with | ⟨0, _⟩ => rfl | ⟨1, _⟩ => rfl)
  rw [hb]
  show (∑ k, _) + _ = _
  congr 1
  refine Finset.sum_congr rfl fun k _ => ?_
  rw [hl, hr, val_main_v20_apply, val_main_v19_apply, une_self, select_zero]

theorem ref_pe (x2 : FVec Ideal S1000000x32 .f32) (x13 : FVec Ideal S32x64 .f32) (x14 : FVec Ideal S64 .f32) :
    val_main_v28 (F := Ideal) x2 x13 x14 = Cert.Spec.lin x2 x13 x14 := by
  funext i
  obtain ⟨p, q, rfl⟩ : ∃ p q, i = ix2 p q := ⟨i 0, i 1, eq_ix2 i⟩
  rw [val_main_v28_apply, val_main_v25_apply, val_main_v27_apply, val_main_v26_apply, Cert.Spec.lin_apply]
  have hb : idx_main_v26 (idx_main_v27 (ix2 p q)) = ix1 q :=
    funext fun a => Fin.ext (by match a with | ⟨0, _⟩ => rfl)
  have hl : ∀ k, lidx_main_v25 (ix2 p q) k = ix2 p k := fun k =>
    funext fun a => Fin.ext (by match a with | ⟨0, _⟩ => rfl | ⟨1, _⟩ => rfl)
  have hr : ∀ k, ridx_main_v25 (ix2 p q) k = ix2 k q := fun k =>
    funext fun a => Fin.ext (by match a with | ⟨0, _⟩ => rfl | ⟨1, _⟩ => rfl)
  rw [hb]
  show (∑ k, _) + _ = _
  congr 1
  refine Finset.sum_congr rfl fun k _ => ?_
  rw [hl, hr, val_main_v18_apply, val_main_v17_apply, une_self, select_zero]

theorem pre_td (m : (ℓ : Loc Cert.KernelIdeal.nD Cert.KernelIdeal.τ Cert.KernelIdeal.sig) → Buf (Elt Ideal) ℓ)
    (h : Cert.Pre_KernelIdeal m) (c : Dev Cert.KernelIdeal.nD) (r : Fin 500000) :
    ((m ((c.tc : Thread Cert.KernelIdeal.nD Cert.KernelIdeal.τ).loc Cert.KernelIdeal.main_arg3) : IVec Cert.KernelIdeal.S500000 32) (ix1 r)).toNat < 100 := by
  have e := congrFun (h c) ValueIdx.ix0
  have e2 := (IntOp.andi_eq_one.1 e).2
  have e3 := Host.reduce_andi_all _ _ _ _ _ e2 (ix1 r)
  obtain ⟨h0, h1⟩ := IntOp.andi_eq_one.1 e3
  exact word_lt _ h0 h1

end Cert.RefVal

end
-- ==== Proof.Bridge.lean ====
/-
  The reference's result as the same function of the arguments as the kernel program's: its last stage adds the merged
  clique features to the concatenation, and the stages between the two dense parts and the concatenation are, operation
  by operation, the kernel program's host stretch `tail`.
-/
import proofs.«425976_j9320079032502_1_alg».proof.Proof.KBound
import proofs.«425976_j9320079032502_1_alg».proof.Proof.RefVal

set_option maxRecDepth 16384

noncomputable section

namespace Cert.Bridge

open Cert.ReferenceIdeal Cert.ReferenceIdeal.Read Idealize.ShloMosaic Idealize.ShloMosaic.TcCoe Idealize.ShloMosaic.ValueIdx Idealize.SL.Sem

/-- The reference's gather, scatter-adds, division and concatenation are the kernel program's host stretch, applied to
    the reference's own dense stages. -/
theorem ref_tail (x1 : FVec Ideal S500000x32 .f32) (x2 : FVec Ideal S1000000x32 .f32) (x4 x5 : IVec S2000000 32)
    (x11 : FVec Ideal S32x64 .f32) (x12 : FVec Ideal S64 .f32) (x13 : FVec Ideal S32x64 .f32) (x14 : FVec Ideal S64 .f32) :
    val_main_v48 (F := Ideal) x1 x2 x4 x5 x11 x12 x13 x14
      = Cert.KernelIdeal.KBound.tail (val_main_v28 (F := Ideal) x2 x13 x14) (val_main_v24 (F := Ideal) x1 x11 x12) x4 x5 := rfl

/-- The reference's result, of its arguments. -/
theorem ref_result (x0 : FVec Ideal S500000x128 .f32) (x1 : FVec Ideal S500000x32 .f32) (x2 : FVec Ideal S1000000x32 .f32)
    (x3 : IVec S500000 32) (x4 x5 : IVec S2000000 32) (x6 : FVec Ideal S100x128 .f32) (x7 : FVec Ideal S128x128 .f32)
    (x8 : FVec Ideal S128 .f32) (x9 : FVec Ideal S128x128 .f32) (x10 : FVec Ideal S128 .f32) (x11 : FVec Ideal S32x64 .f32)
    (x12 : FVec Ideal S64 .f32) (x13 : FVec Ideal S32x64 .f32) (x14 : FVec Ideal S64 .f32)
    (hr : ∀ r : Fin 500000, (x3 (ix1 r)).toNat < 100) :
    val_main_v49 (F := Ideal) x0 x1 x2 x3 x4 x5 x6 x7 x8 x9 x10 x11 x12 x13 x14
      = addf (F := Ideal) (s := S500000x128) (φ := .f32) (Cert.Spec.xout x0 x3 x6 x7 x8 x9 x10)
          (Cert.KernelIdeal.KBound.tail (Cert.Spec.lin x2 x13 x14) (Cert.Spec.lin x1 x11 x12) x4 x5) := by
  show addf (F := Ideal) (s := S500000x128) (φ := .f32) (val_main_v16 (F := Ideal) x0 x3 x6 x7 x8 x9 x10)
    (val_main_v48 (F := Ideal) x1 x2 x4 x5 x11 x12 x13 x14) = _
  rw [ref_tail, Cert.RefVal.ref_x x0 x3 x6 x7 x8 x9 x10 hr, Cert.RefVal.ref_pe, Cert.RefVal.ref_tpe]

end Cert.Bridge

end
-- ==== Proof.lean ====
/-
  The kernel program against its reference, over the extended reals, for degree words in [0, 100).

  The kernel program computes, in three tiled regions and one host stretch between them,
    out = X + concat (T (PE, row, col), TPE)
  where X = lin (x_clique + max (lin (rows deg_emb tree_degree) W₁ b₁) 0) W₂ b₂ is the merged clique features (the rows
  of the embedding table are taken by a product with a 0/1 matrix that has its single one at the degree word, against
  the table padded with zero rows), PE and TPE are affine maps of the atom and tree encodings (the guard against
  not-a-number entries selects the entry itself: on the extended reals x = x), and T gathers PE by row index, sums the
  gathered rows into their cliques and divides by the clique sizes. The reference computes the same X, PE and TPE with
  host products and a host gather of the table's rows (in range, by the precondition), and applies the SAME operations
  T: the two results are one function of the arguments. The sums are compared term by term, so no law of the
  extended reals beyond 0 · x = 0, 1 · x = x and 0 + x = x is used and finiteness of the inputs is never opened.
-/
import proofs.«425976_j9320079032502_1_alg».proof.Defs
import proofs.«425976_j9320079032502_1_alg».proof.Proof.Gen.Kernel
import proofs.«425976_j9320079032502_1_alg».proof.Proof.Gen.Kernel.Skeleton
import proofs.«425976_j9320079032502_1_alg».proof.Proof.Gen.Kernel.Launch
import proofs.«425976_j9320079032502_1_alg».proof.Proof.Gen.Kernel.Points
import proofs.«425976_j9320079032502_1_alg».proof.Proof.Gen.Kernel.Frame
import proofs.«425976_j9320079032502_1_alg».proof.Proof.Gen.KernelIdeal
import proofs.«425976_j9320079032502_1_alg».proof.Proof.Gen.KernelIdeal.Skeleton
import proofs.«425976_j9320079032502_1_alg».proof.Proof.Gen.KernelIdeal.Launch
import proofs.«425976_j9320079032502_1_alg».proof.Proof.Gen.KernelIdeal.Points
import proofs.«425976_j9320079032502_1_alg».proof.Proof.Gen.KernelIdeal.Frame
import proofs.«425976_j9320079032502_1_alg».proof.Proof.Gen.ReferenceIdeal
import proofs.«425976_j9320079032502_1_alg».proof.Proof.Gen.ReferenceIdeal.Run
import proofs.«425976_j9320079032502_1_alg».proof.Proof.Gen.ReferenceIdeal.Read
import proofs.«425976_j9320079032502_1_alg».proof.Proof.Gen.Pre_finite_inputs
import proofs.«425976_j9320079032502_1_alg».proof.Proof.KernelRun
import proofs.«425976_j9320079032502_1_alg».proof.Proof.KValue
import proofs.«425976_j9320079032502_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the result array at the same function of the arguments. -/
theorem algebraic : Cert.algebraic_KernelIdeal_ReferenceIdeal := by
  intro m ρ m' ρ' hpre hagree
  refine ⟨fun c => Cert.KernelIdeal.Gen.W6 (F := Ideal) m ρ c (Proc.devRef .tc Cert.KernelIdeal.main_v24),
    Cert.KernelIdeal.KRun.run_main (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14⟩ := hagree c
  rw [Cert.ReferenceIdeal.Read.val_main_v49_eq, e0, e1, e2, e3, e4, e5, e6, e7, e8, e9, e10, e11, e12, e13, e14,
    Cert.Bridge.ref_result _ _ _ _ _ _ _ _ _ _ _ _ _ _ _ (Cert.RefVal.pre_td m hpre c)]
  exact (Cert.KernelIdeal.KValue.result_eq m ρ c (Cert.RefVal.pre_td m hpre c)).symm

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
